-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1023x1024 : Shape := ⟨2, ![1023, 1024]⟩
abbrev S1023 : Shape := ⟨1, ![1023]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1023x1024 : S_.BroadcastsInDim S1023x1024 (![] : Fin 0 → Fin S1023x1024.rank)
  reducesTo_S1023x1024_S_d0_1 : S1023x1024.ReducesTo [0, 1] S_
  bcast_S_S1023 : S_.BroadcastsInDim S1023 (![] : Fin 0 → Fin S1023.rank)
  reducesTo_S1023_S_d0 : S1023.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S1023x1024 .f32) (main_arg2 : FVec F S1023 .f32) (main_arg3 : FVec F S1024x1024 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1023x1024 .f32 := Host.absf main_arg1
  let main_cst_0 : FVec F S_ .f32 := constant S_ .f32 0x7F800000#32
  let main_v5 : FVec F S1023x1024 .f32 := broadcastInDim S1023x1024 ![] bcast_S_S1023x1024 main_cst_0
  let main_v6 : IVec S1023x1024 1 := cmpf .olt main_v4 main_v5
  let main_c_1 : IVec S_ 1 := constantI S_ 1 1#1
  let main_v7 : IVec S_ 1 := (fun x v => Host.reduce IntOp.andi x v reducesTo_S1023x1024_S_d0_1 h_S_) main_v6 main_c_1
  let main_v8 : IVec S_ 1 := andi main_v3 main_v7
  let main_v9 : FVec F S1023 .f32 := Host.absf main_arg2
  let main_cst_2 : FVec F S_ .f32 := constant S_ .f32 0x7F800000#32
  let main_v10 : FVec F S1023 .f32 := broadcastInDim S1023 ![] bcast_S_S1023 main_cst_2
  let main_v11 : IVec S1023 1 := cmpf .olt main_v9 main_v10
  let main_c_3 : IVec S_ 1 := constantI S_ 1 1#1
  let main_v12 : IVec S_ 1 := (fun x v => Host.reduce IntOp.andi x v reducesTo_S1023_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16384x1024 : Shape := ⟨2, ![16384, 1024]⟩
abbrev S1023x1024 : Shape := ⟨2, ![1023, 1024]⟩
abbrev S1023 : Shape := ⟨1, ![1023]⟩
abbrev S1024x1024 : Shape := ⟨2, ![1024, 1024]⟩
abbrev S1024 : Shape := ⟨1, ![1024]⟩
abbrev S1x1023 : Shape := ⟨2, ![1, 1023]⟩
abbrev S1x1024 : Shape := ⟨2, ![1, 1024]⟩
abbrev S16384x1 : Shape := ⟨2, ![16384, 1]⟩
abbrev S1024x1 : Shape := ⟨2, ![1024, 1]⟩
abbrev S1024x1023 : Shape := ⟨2, ![1024, 1023]⟩
abbrev S1024x1x1 : Shape := ⟨3, ![1024, 1, 1]⟩
abbrev S1024x1x2 : Shape := ⟨3, ![1024, 1, 2]⟩
abbrev S1024x2 : Shape := ⟨2, ![1024, 2]⟩
abbrev S1024x2x1 : Shape := ⟨3, ![1024, 2, 1]⟩
abbrev S1024x2x2 : Shape := ⟨3, ![1024, 2, 2]⟩
abbrev S1024x4 : Shape := ⟨2, ![1024, 4]⟩
abbrev S1024x4x1 : Shape := ⟨3, ![1024, 4, 1]⟩
abbrev S1024x4x2 : Shape := ⟨3, ![1024, 4, 2]⟩
abbrev S1024x8 : Shape := ⟨2, ![1024, 8]⟩
abbrev S1024x8x1 : Shape := ⟨3, ![1024, 8, 1]⟩
abbrev S1024x8x2 : Shape := ⟨3, ![1024, 8, 2]⟩
abbrev S1024x16 : Shape := ⟨2, ![1024, 16]⟩
abbrev S1024x16x1 : Shape := ⟨3, ![1024, 16, 1]⟩
abbrev S1024x16x2 : Shape := ⟨3, ![1024, 16, 2]⟩
abbrev S1024x32 : Shape := ⟨2, ![1024, 32]⟩
abbrev S1024x32x1 : Shape := ⟨3, ![1024, 32, 1]⟩
abbrev S1024x32x2 : Shape := ⟨3, ![1024, 32, 2]⟩
abbrev S1024x64 : Shape := ⟨2, ![1024, 64]⟩
abbrev S1024x64x1 : Shape := ⟨3, ![1024, 64, 1]⟩
abbrev S1024x64x2 : Shape := ⟨3, ![1024, 64, 2]⟩
abbrev S1024x128 : Shape := ⟨2, ![1024, 128]⟩
abbrev S1024x128x1 : Shape := ⟨3, ![1024, 128, 1]⟩
abbrev S1024x128x2 : Shape := ⟨3, ![1024, 128, 2]⟩
abbrev S1024x256 : Shape := ⟨2, ![1024, 256]⟩
abbrev S1024x256x1 : Shape := ⟨3, ![1024, 256, 1]⟩
abbrev S1024x256x2 : Shape := ⟨3, ![1024, 256, 2]⟩
abbrev S1024x512 : Shape := ⟨2, ![1024, 512]⟩
abbrev S1024x512x1 : Shape := ⟨3, ![1024, 512, 1]⟩
abbrev S1024x512x2 : Shape := ⟨3, ![1024, 512, 2]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1023x1024, .f32⟩
  | .hbm, ⟨2, _⟩ => ⟨S1023, .f32⟩
  | .hbm, ⟨3, _⟩ => ⟨S1024x1024, .f32⟩
  | .hbm, ⟨4, _⟩ => ⟨S1024, .f32⟩
  | .hbm, ⟨5, _⟩ => ⟨S1x1023, .f32⟩
  | .hbm, ⟨6, _⟩ => ⟨S1x1024, .f32⟩
  | .hbm, ⟨7, _⟩ => ⟨S16384x1, .f32⟩
  | .local _ .vmem, ⟨0, _⟩ => ⟨S1024x1024, .f32⟩
  | .local _ .vmem, ⟨1, _⟩ => ⟨S1024x1024, .f32⟩
  | .local _ .vmem, ⟨2, _⟩ => ⟨S1023x1024, .f32⟩
  | .local _ .vmem, ⟨3, _⟩ => ⟨S1x1023, .f32⟩
  | .local _ .vmem, ⟨4, _⟩ => ⟨S1024x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1023x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1023 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1023_S1x1023 : S1023.ShapeCasts S1x1023
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1023x1024_S1023x1024_0_0 : ∀ a, (![0, 0] : Fin 2 → Nat) a + S1023x1024.size a ≤ S1023x1024.size a
  h_S1023x1024 : 0 < S1023x1024.numel
  inb_S1x1023_S1x1023_0_0 : ∀ a, (![0, 0] : Fin 2 → Nat) a + S1x1023.size a ≤ S1x1023.size a
  h_S1x1023 : 0 < S1x1023.numel
  shapeCasts_S1x1023_S1x1023 : S1x1023.ShapeCasts S1x1023
  broadcasts_S1x1023_S1024x1023 : S1x1023.Broadcasts S1024x1023
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1023_o0_0_S1024x1 : S1024x1023.Slices ![0, 0] S1024x1
  shapeCasts_S1024x1_S1024x1x1 : S1024x1.ShapeCasts S1024x1x1
  concatenates_S1024x1x1_S1024x1x1_S1024x1x2_d2 : Shape.Concatenates [S1024x1x1, S1024x1x1] S1024x1x2 2
  shapeCasts_S1024x1x2_S1024x2 : S1024x1x2.ShapeCasts S1024x2
  slices_S1024x1023_o0_1_S1024x2 : S1024x1023.Slices ![0, 1] S1024x2
  shapeCasts_S1024x2_S1024x2x1 : S1024x2.ShapeCasts S1024x2x1
  concatenates_S1024x2x1_S1024x2x1_S1024x2x2_d2 : Shape.Concatenates [S1024x2x1, S1024x2x1] S1024x2x2 2
  shapeCasts_S1024x2x2_S1024x4 : S1024x2x2.ShapeCasts S1024x4
  slices_S1024x1023_o0_3_S1024x4 : S1024x1023.Slices ![0, 3] S1024x4
  shapeCasts_S1024x4_S1024x4x1 : S1024x4.ShapeCasts S1024x4x1
  concatenates_S1024x4x1_S1024x4x1_S1024x4x2_d2 : Shape.Concatenates [S1024x4x1, S1024x4x1] S1024x4x2 2
  shapeCasts_S1024x4x2_S1024x8 : S1024x4x2.ShapeCasts S1024x8
  slices_S1024x1023_o0_7_S1024x8 : S1024x1023.Slices ![0, 7] S1024x8
  shapeCasts_S1024x8_S1024x8x1 : S1024x8.ShapeCasts S1024x8x1
  concatenates_S1024x8x1_S1024x8x1_S1024x8x2_d2 : Shape.Concatenates [S1024x8x1, S1024x8x1] S1024x8x2 2
  shapeCasts_S1024x8x2_S1024x16 : S1024x8x2.ShapeCasts S1024x16
  slices_S1024x1023_o0_15_S1024x16 : S1024x1023.Slices ![0, 15] S1024x16
  shapeCasts_S1024x16_S1024x16x1 : S1024x16.ShapeCasts S1024x16x1
  concatenates_S1024x16x1_S1024x16x1_S1024x16x2_d2 : Shape.Concatenates [S1024x16x1, S1024x16x1] S1024x16x2 2
  shapeCasts_S1024x16x2_S1024x32 : S1024x16x2.ShapeCasts S1024x32
  slices_S1024x1023_o0_31_S1024x32 : S1024x1023.Slices ![0, 31] S1024x32
  shapeCasts_S1024x32_S1024x32x1 : S1024x32.ShapeCasts S1024x32x1
  concatenates_S1024x32x1_S1024x32x1_S1024x32x2_d2 : Shape.Concatenates [S1024x32x1, S1024x32x1] S1024x32x2 2
  shapeCasts_S1024x32x2_S1024x64 : S1024x32x2.ShapeCasts S1024x64
  slices_S1024x1023_o0_63_S1024x64 : S1024x1023.Slices ![0, 63] S1024x64
  shapeCasts_S1024x64_S1024x64x1 : S1024x64.ShapeCasts S1024x64x1
  concatenates_S1024x64x1_S1024x64x1_S1024x64x2_d2 : Shape.Concatenates [S1024x64x1, S1024x64x1] S1024x64x2 2
  shapeCasts_S1024x64x2_S1024x128 : S1024x64x2.ShapeCasts S1024x128
  slices_S1024x1023_o0_127_S1024x128 : S1024x1023.Slices ![0, 127] S1024x128
  shapeCasts_S1024x128_S1024x128x1 : S1024x128.ShapeCasts S1024x128x1
  concatenates_S1024x128x1_S1024x128x1_S1024x128x2_d2 : Shape.Concatenates [S1024x128x1, S1024x128x1] S1024x128x2 2
  shapeCasts_S1024x128x2_S1024x256 : S1024x128x2.ShapeCasts S1024x256
  slices_S1024x1023_o0_255_S1024x256 : S1024x1023.Slices ![0, 255] S1024x256
  shapeCasts_S1024x256_S1024x256x1 : S1024x256.ShapeCasts S1024x256x1
  concatenates_S1024x256x1_S1024x256x1_S1024x256x2_d2 : Shape.Concatenates [S1024x256x1, S1024x256x1] S1024x256x2 2
  shapeCasts_S1024x256x2_S1024x512 : S1024x256x2.ShapeCasts S1024x512
  slices_S1024x1023_o0_511_S1024x512 : S1024x1023.Slices ![0, 511] S1024x512
  shapeCasts_S1024x512_S1024x512x1 : S1024x512.ShapeCasts S1024x512x1
  concatenates_S1024x512x1_S1024x512x1_S1024x512x2_d2 : Shape.Concatenates [S1024x512x1, S1024x512x1] S1024x512x2 2
  shapeCasts_S1024x512x2_S1024x1024 : S1024x512x2.ShapeCasts S1024x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x1024_S1023x1024_S1024x1023_1_1_0_0_n_n_wf : DotDims.WF S1024x1024 S1023x1024 S1024x1023 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1023x1024.size a ≤ S1023x1024.size a
  hwx0_1 : ∀ i : grid0.Coords, EltTy.bits .f32 = 32 ∨ (Rect.block (s := S1023x1024) S1023x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1023.size a ≤ S1x1023.size a
  hwx0_2 : ∀ i : grid0.Coords, EltTy.bits .f32 = 32 ∨ (Rect.block (s := S1x1023) S1x1023.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def dot_S1024x1024_S1023x1024_S1024x1023_1_1_0_0_n_n : DotDims S1024x1024 S1023x1024 S1024x1023 where
  lhsContracting := [1]
  rhsContracting := [1]
  lhsNonContracting := [0]
  rhsNonContracting := [0]
  lhsBatch := []
  rhsBatch := []
  wf := dot_S1024x1024_S1023x1024_S1024x1023_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1023x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1023.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1023x1024 : Shape := ⟨2, ![1023, 1024]⟩
abbrev S1023 : Shape := ⟨1, ![1023]⟩
abbrev S1024x1024 : Shape := ⟨2, ![1024, 1024]⟩
abbrev S1024 : Shape := ⟨1, ![1024]⟩
abbrev S16384x1023 : Shape := ⟨2, ![16384, 1023]⟩
abbrev S1x1023 : Shape := ⟨2, ![1, 1023]⟩
abbrev S_ : Shape := ⟨0, ![]⟩
abbrev S1x1024 : Shape := ⟨2, ![1, 1024]⟩
abbrev S16384x1 : Shape := ⟨2, ![16384, 1]⟩
abbrev S16384x1x1 : Shape := ⟨3, ![16384, 1, 1]⟩
abbrev S16384x1x2 : Shape := ⟨3, ![16384, 1, 2]⟩
abbrev S16384x2 : Shape := ⟨2, ![16384, 2]⟩
abbrev S16384x2x1 : Shape := ⟨3, ![16384, 2, 1]⟩
abbrev S16384x2x2 : Shape := ⟨3, ![16384, 2, 2]⟩
abbrev S16384x4 : Shape := ⟨2, ![16384, 4]⟩
abbrev S16384x4x1 : Shape := ⟨3, ![16384, 4, 1]⟩
abbrev S16384x4x2 : Shape := ⟨3, ![16384, 4, 2]⟩
abbrev S16384x8 : Shape := ⟨2, ![16384, 8]⟩
abbrev S16384x8x1 : Shape := ⟨3, ![16384, 8, 1]⟩
abbrev S16384x8x2 : Shape := ⟨3, ![16384, 8, 2]⟩
abbrev S16384x16 : Shape := ⟨2, ![16384, 16]⟩
abbrev S16384x16x1 : Shape := ⟨3, ![16384, 16, 1]⟩
abbrev S16384x16x2 : Shape := ⟨3, ![16384, 16, 2]⟩
abbrev S16384x32 : Shape := ⟨2, ![16384, 32]⟩
abbrev S16384x32x1 : Shape := ⟨3, ![16384, 32, 1]⟩
abbrev S16384x32x2 : Shape := ⟨3, ![16384, 32, 2]⟩
abbrev S16384x64 : Shape := ⟨2, ![16384, 64]⟩
abbrev S16384x64x1 : Shape := ⟨3, ![16384, 64, 1]⟩
abbrev S16384x64x2 : Shape := ⟨3, ![16384, 64, 2]⟩
abbrev S16384x128 : Shape := ⟨2, ![16384, 128]⟩
abbrev S16384x128x1 : Shape := ⟨3, ![16384, 128, 1]⟩
abbrev S16384x128x2 : Shape := ⟨3, ![16384, 128, 2]⟩
abbrev S16384x256 : Shape := ⟨2, ![16384, 256]⟩
abbrev S16384x256x1 : Shape := ⟨3, ![16384, 256, 1]⟩
abbrev S16384x256x2 : Shape := ⟨3, ![16384, 256, 2]⟩
abbrev S16384x512 : Shape := ⟨2, ![16384, 512]⟩
abbrev S16384x512x1 : Shape := ⟨3, ![16384, 512, 1]⟩
abbrev S16384x512x2 : Shape := ⟨3, ![16384, 512, 2]⟩
abbrev S16384 : Shape := ⟨1, ![16384]⟩

abbrev nBuf : Space → Nat
  | .hbm => 127
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1023x1024, .f32⟩
  | .hbm, ⟨2, _⟩ => ⟨S1023, .f32⟩
  | .hbm, ⟨3, _⟩ => ⟨S1024x1024, .f32⟩
  | .hbm, ⟨4, _⟩ => ⟨S1024, .f32⟩
  | .hbm, ⟨5, _⟩ => ⟨S16384x1023, .f32⟩
  | .hbm, ⟨6, _⟩ => ⟨S1x1023, .f32⟩
  | .hbm, ⟨7, _⟩ => ⟨S16384x1023, .f32⟩
  | .hbm, ⟨8, _⟩ => ⟨S16384x1023, .f32⟩
  | .hbm, ⟨9, _⟩ => ⟨S16384x1023, .f32⟩
  | .hbm, ⟨10, _⟩ => ⟨S16384x1023, .f32⟩
  | .hbm, ⟨11, _⟩ => ⟨S_, .f32⟩
  | .hbm, ⟨12, _⟩ => ⟨S16384x1023, .f32⟩
  | .hbm, ⟨13, _⟩ => ⟨S16384x1023, .f32⟩
  | .hbm, ⟨14, _⟩ => ⟨S_, .f32⟩
  | .hbm, ⟨15, _⟩ => ⟨S16384x1023, .f32⟩
  | .hbm, ⟨16, _⟩ => ⟨S16384x1023, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1x1, .f32⟩
  | .hbm, ⟨30, _⟩ => ⟨S16384x1x1, .f32⟩
  | .hbm, ⟨31, _⟩ => ⟨S16384x1x2, .f32⟩
  | .hbm, ⟨32, _⟩ => ⟨S16384x2, .f32⟩
  | .hbm, ⟨33, _⟩ => ⟨S16384x2, .f32⟩
  | .hbm, ⟨34, _⟩ => ⟨S_, .f32⟩
  | .hbm, ⟨35, _⟩ => ⟨S16384x2, .f32⟩
  | .hbm, ⟨36, _⟩ => ⟨S16384x2, .f32⟩
  | .hbm, ⟨37, _⟩ => ⟨S16384x2, .f32⟩
  | .hbm, ⟨38, _⟩ => ⟨S16384x2, .f32⟩
  | .hbm, ⟨39, _⟩ => ⟨S16384x2x1, .f32⟩
  | .hbm, ⟨40, _⟩ => ⟨S16384x2x1, .f32⟩
  | .hbm, ⟨41, _⟩ => ⟨S16384x2x2, .f32⟩
  | .hbm, ⟨42, _⟩ => ⟨S16384x4, .f32⟩
  | .hbm, ⟨43, _⟩ => ⟨S16384x4, .f32⟩
  | .hbm, ⟨44, _⟩ => ⟨S_, .f32⟩
  | .hbm, ⟨45, _⟩ => ⟨S16384x4, .f32⟩
  | .hbm, ⟨46, _⟩ => ⟨S16384x4, .f32⟩
  | .hbm, ⟨47, _⟩ => ⟨S16384x4, .f32⟩
  | .hbm, ⟨48, _⟩ => ⟨S16384x4, .f32⟩
  | .hbm, ⟨49, _⟩ => ⟨S16384x4x1, .f32⟩
  | .hbm, ⟨50, _⟩ => ⟨S16384x4x1, .f32⟩
  | .hbm, ⟨51, _⟩ => ⟨S16384x4x2, .f32⟩
  | .hbm, ⟨52, _⟩ => ⟨S16384x8, .f32⟩
  | .hbm, ⟨53, _⟩ => ⟨S16384x8, .f32⟩
  | .hbm, ⟨54, _⟩ => ⟨S_, .f32⟩
  | .hbm, ⟨55, _⟩ => ⟨S16384x8, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S16384x8x1, .f32⟩
  | .hbm, ⟨60, _⟩ => ⟨S16384x8x1, .f32⟩
  | .hbm, ⟨61, _⟩ => ⟨S16384x8x2, .f32⟩
  | .hbm, ⟨62, _⟩ => ⟨S16384x16, .f32⟩
  | .hbm, ⟨63, _⟩ => ⟨S16384x16, .f32⟩
  | .hbm, ⟨64, _⟩ => ⟨S_, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S16384x16x1, .f32⟩
  | .hbm, ⟨70, _⟩ => ⟨S16384x16x1, .f32⟩
  | .hbm, ⟨71, _⟩ => ⟨S16384x16x2, .f32⟩
  | .hbm, ⟨72, _⟩ => ⟨S16384x32, .f32⟩
  | .hbm, ⟨73, _⟩ => ⟨S16384x32, .f32⟩
  | .hbm, ⟨74, _⟩ => ⟨S_, .f32⟩
  | .hbm, ⟨75, _⟩ => ⟨S16384x32, .f32⟩
  | .hbm, ⟨76, _⟩ => ⟨S16384x32, .f32⟩
  | .hbm, ⟨77, _⟩ => ⟨S16384x32, .f32⟩
  | .hbm, ⟨78, _⟩ => ⟨S16384x32, .f32⟩
  | .hbm, ⟨79, _⟩ => ⟨S16384x32x1, .f32⟩
  | .hbm, ⟨80, _⟩ => ⟨S16384x32x1, .f32⟩
  | .hbm, ⟨81, _⟩ => ⟨S16384x32x2, .f32⟩
  | .hbm, ⟨82, _⟩ => ⟨S16384x64, .f32⟩
  | .hbm, ⟨83, _⟩ => ⟨S16384x64, .f32⟩
  | .hbm, ⟨84, _⟩ => ⟨S_, .f32⟩
  | .hbm, ⟨85, _⟩ => ⟨S16384x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64x1, .f32⟩
  | .hbm, ⟨90, _⟩ => ⟨S16384x64x1, .f32⟩
  | .hbm, ⟨91, _⟩ => ⟨S16384x64x2, .f32⟩
  | .hbm, ⟨92, _⟩ => ⟨S16384x128, .f32⟩
  | .hbm, ⟨93, _⟩ => ⟨S16384x128, .f32⟩
  | .hbm, ⟨94, _⟩ => ⟨S_, .f32⟩
  | .hbm, ⟨95, _⟩ => ⟨S16384x128, .f32⟩
  | .hbm, ⟨96, _⟩ => ⟨S16384x128, .f32⟩
  | .hbm, ⟨97, _⟩ => ⟨S16384x128, .f32⟩
  | .hbm, ⟨98, _⟩ => ⟨S16384x128, .f32⟩
  | .hbm, ⟨99, _⟩ => ⟨S16384x128x1, .f32⟩
  | .hbm, ⟨100, _⟩ => ⟨S16384x128x1, .f32⟩
  | .hbm, ⟨101, _⟩ => ⟨S16384x128x2, .f32⟩
  | .hbm, ⟨102, _⟩ => ⟨S16384x256, .f32⟩
  | .hbm, ⟨103, _⟩ => ⟨S16384x256, .f32⟩
  | .hbm, ⟨104, _⟩ => ⟨S_, .f32⟩
  | .hbm, ⟨105, _⟩ => ⟨S16384x256, .f32⟩
  | .hbm, ⟨106, _⟩ => ⟨S16384x256, .f32⟩
  | .hbm, ⟨107, _⟩ => ⟨S16384x256, .f32⟩
  | .hbm, ⟨108, _⟩ => ⟨S16384x256, .f32⟩
  | .hbm, ⟨109, _⟩ => ⟨S16384x256x1, .f32⟩
  | .hbm, ⟨110, _⟩ => ⟨S16384x256x1, .f32⟩
  | .hbm, ⟨111, _⟩ => ⟨S16384x256x2, .f32⟩
  | .hbm, ⟨112, _⟩ => ⟨S16384x512, .f32⟩
  | .hbm, ⟨113, _⟩ => ⟨S16384x512, .f32⟩
  | .hbm, ⟨114, _⟩ => ⟨S_, .f32⟩
  | .hbm, ⟨115, _⟩ => ⟨S16384x512, .f32⟩
  | .hbm, ⟨116, _⟩ => ⟨S16384x512, .f32⟩
  | .hbm, ⟨117, _⟩ => ⟨S16384x512, .f32⟩
  | .hbm, ⟨118, _⟩ => ⟨S16384x512, .f32⟩
  | .hbm, ⟨119, _⟩ => ⟨S16384x512x1, .f32⟩
  | .hbm, ⟨120, _⟩ => ⟨S16384x512x1, .f32⟩
  | .hbm, ⟨121, _⟩ => ⟨S16384x512x2, .f32⟩
  | .hbm, ⟨122, _⟩ => ⟨S16384x1024, .f32⟩
  | .hbm, ⟨123, _⟩ => ⟨S16384x1024, .f32⟩
  | .hbm, ⟨124, _⟩ => ⟨S_, .f32⟩
  | .hbm, ⟨125, _⟩ => ⟨S16384, .f32⟩
  | .hbm, ⟨126, _⟩ => ⟨S16384x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_11 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_12 : Ref sig .tc := ⟨.hbm, 124, rfl⟩
abbrev main_v106 : Ref sig .tc := ⟨.hbm, 125, rfl⟩
abbrev main_v107 : Ref sig .tc := ⟨.hbm, 126, rfl⟩

abbrev nD : Nat := 1
abbrev τ : Topo := Topo.v7x

variable {F : FTy → Type} [FloatOps F]

class Facts₀ : Prop where
  bcast_S1023_S1x1023_1 : S1023.BroadcastsInDim S1x1023 (![1] : Fin 1 → Fin S1x1023.rank)
  bcast_S1x1023_S16384x1023_0_1 : S1x1023.BroadcastsInDim S16384x1023 (![0, 1] : Fin 2 → Fin S16384x1023.rank)
  bcast_S_S16384x1023 : S_.BroadcastsInDim S16384x1023 (![] : Fin 0 → Fin S16384x1023.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1 : S_.BroadcastsInDim S16384x1 (![] : Fin 0 → Fin S16384x1.rank)
  slices_S16384x1023_S16384x1_0_0 : S16384x1023.Slices ![0, 0] S16384x1
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  shapeCasts_S16384x1x2_S16384x2 : S16384x1x2.ShapeCasts S16384x2
  slices_S16384x1023_S16384x2_0_1 : S16384x1023.Slices ![0, 1] S16384x2
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  concatenates_S16384x2x1_S16384x2x1_S16384x2x2_d2 : Shape.Concatenates [S16384x2x1, S16384x2x1] S16384x2x2 2
  shapeCasts_S16384x2x2_S16384x4 : S16384x2x2.ShapeCasts S16384x4
  slices_S16384x1023_S16384x4_0_3 : S16384x1023.Slices ![0, 3] S16384x4
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  concatenates_S16384x4x1_S16384x4x1_S16384x4x2_d2 : Shape.Concatenates [S16384x4x1, S16384x4x1] S16384x4x2 2
  shapeCasts_S16384x4x2_S16384x8 : S16384x4x2.ShapeCasts S16384x8
  slices_S16384x1023_S16384x8_0_7 : S16384x1023.Slices ![0, 7] S16384x8
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  shapeCasts_S16384x8x2_S16384x16 : S16384x8x2.ShapeCasts S16384x16
  slices_S16384x1023_S16384x16_0_15 : S16384x1023.Slices ![0, 15] S16384x16
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x2_S16384x32 : S16384x16x2.ShapeCasts S16384x32
  slices_S16384x1023_S16384x32_0_31 : S16384x1023.Slices ![0, 31] S16384x32
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  shapeCasts_S16384x32x2_S16384x64 : S16384x32x2.ShapeCasts S16384x64
  slices_S16384x1023_S16384x64_0_63 : S16384x1023.Slices ![0, 63] S16384x64
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  shapeCasts_S16384x64x2_S16384x128 : S16384x64x2.ShapeCasts S16384x128
  slices_S16384x1023_S16384x128_0_127 : S16384x1023.Slices ![0, 127] S16384x128
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  concatenates_S16384x128x1_S16384x128x1_S16384x128x2_d2 : Shape.Concatenates [S16384x128x1, S16384x128x1] S16384x128x2 2
  shapeCasts_S16384x128x2_S16384x256 : S16384x128x2.ShapeCasts S16384x256
  slices_S16384x1023_S16384x256_0_255 : S16384x1023.Slices ![0, 255] S16384x256
  bcast_S_S16384x256 : S_.BroadcastsInDim S16384x256 (![] : Fin 0 → Fin S16384x256.rank)
  bcast_S16384x256_S16384x256x1_0_1 : S16384x256.BroadcastsInDim S16384x256x1 (![0, 1] : Fin 2 → Fin S16384x256x1.rank)
  concatenates_S16384x256x1_S16384x256x1_S16384x256x2_d2 : Shape.Concatenates [S16384x256x1, S16384x256x1] S16384x256x2 2
  shapeCasts_S16384x256x2_S16384x512 : S16384x256x2.ShapeCasts S16384x512
  slices_S16384x1023_S16384x512_0_511 : S16384x1023.Slices ![0, 511] S16384x512
  bcast_S_S16384x512 : S_.BroadcastsInDim S16384x512 (![] : Fin 0 → Fin S16384x512.rank)
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  shapeCasts_S16384x512x2_S16384x1024 : S16384x512x2.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  dot_S16384x1024_S1023x1024_S16384x1023_1_1_0_0_n_n_wf : DotDims.WF S16384x1024 S1023x1024 S16384x1023 [1] [1] [0] [0] [] []
  dot_S16384x1024_S1024x1024_S16384x1024_1_1_0_0_n_n_wf : DotDims.WF S16384x1024 S1024x1024 S16384x1024 [1] [1] [0] [0] [] []

variable [Facts₀]

def dot_S16384x1024_S1023x1024_S16384x1023_1_1_0_0_n_n : DotDims S16384x1024 S1023x1024 S16384x1023 where
  lhsContracting := [1]
  rhsContracting := [1]
  lhsNonContracting := [0]
  rhsNonContracting := [0]
  lhsBatch := []
  rhsBatch := []
  wf := dot_S16384x1024_S1023x1024_S16384x1023_1_1_0_0_n_n_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.TreeSpec.lean ====
/-
  The soft decision tree, row by row, as one function of the argument arrays.

  A row `x` of the batch meets 1023 internal nodes in breadth-first order: node `k` sends the row to its right child
  with probability `p k = σ(⟨x, W_split k⟩ + b_split k)` and to its left child with `1 - p k`. The weight with which the row
  reaches node `j` of depth `d` (there are `2 ^ d` of them, the first at position `2 ^ d - 1` of the breadth-first order) is
  the product along its path: `treeW p (d + 1) j = treeW p d (j / 2) · (1 - p _)` for an even `j` (a left child) and
  `· p _` for an odd one, the parent being node `2 ^ d - 1 + j / 2`. The row's result is the sum over the 1024 leaves of
  the leaf's weight times the leaf's affine output `⟨x, W_leaf l⟩ + b_leaf l`.
-/
import Idealize.ShloMosaic.PureOps.Ideal
import Idealize.ShloMosaic.Lib.ValueIdx

noncomputable section

namespace Cert.Tree

open Idealize.ShloMosaic Idealize.ShloMosaic.ValueIdx

/-- The f32 word of `1.0` read at the ideal instance; both programs spell it so, and it is never evaluated here. -/
abbrev one : EReal := Ideal.ofBits .f32 0x3F800000#32

/-- The weight with which a row whose split probabilities are `p` (in breadth-first node order) reaches node `j` of depth `d`. -/
def treeW (p : ℕ → EReal) : ℕ → ℕ → EReal
  | 0, _ => one
  | d + 1, j => treeW p d (j / 2) * (if j % 2 = 0 then one - p (2 ^ d - 1 + j / 2) else p (2 ^ d - 1 + j / 2))

theorem treeW_zero (p : ℕ → EReal) (j : ℕ) : treeW p 0 j = one := rfl

theorem treeW_succ (p : ℕ → EReal) (d j : ℕ) :
    treeW p (d + 1) j = treeW p d (j / 2) * (if j % 2 = 0 then one - p (2 ^ d - 1 + j / 2) else p (2 ^ d - 1 + j / 2)) := rfl

/-- Node `k`'s split probability for the row `x`: the logistic function of its affine score (`0` past the last node, where
    nothing reads it). -/
def prob (x : Fin 1024 → EReal) (Ws : Fin 1023 → Fin 1024 → EReal) (bs : Fin 1023 → EReal) (k : ℕ) : EReal :=
  if h : k < 1023 then Ideal.logistic ((∑ q : Fin 1024, x q * Ws ⟨k, h⟩ q) + bs ⟨k, h⟩) else 0

theorem prob_of_lt (x : Fin 1024 → EReal) (Ws : Fin 1023 → Fin 1024 → EReal) (bs : Fin 1023 → EReal) (k : Fin 1023) :
    prob x Ws bs k.val = Ideal.logistic ((∑ q : Fin 1024, x q * Ws k q) + bs k) := by
  unfold prob; rw [dif_pos k.isLt]

/-- Leaf `l`'s affine output for the row `x`. -/
def leaf (x : Fin 1024 → EReal) (Wl : Fin 1024 → Fin 1024 → EReal) (bl : Fin 1024 → EReal) (l : Fin 1024) : EReal :=
  (∑ q : Fin 1024, x q * Wl l q) + bl l

/-- The row's result: every leaf's weight times its output, summed. -/
def rowOut (x : Fin 1024 → EReal) (Ws : Fin 1023 → Fin 1024 → EReal) (bs : Fin 1023 → EReal)
    (Wl : Fin 1024 → Fin 1024 → EReal) (bl : Fin 1024 → EReal) : EReal :=
  ∑ l : Fin 1024, treeW (prob x Ws bs) 10 l.val * leaf x Wl bl l

/-- The whole result array `[16384, 1]` as one function of the five argument arrays, index by index. -/
def G (x : FVec Ideal ⟨2, ![16384, 1024]⟩ .f32) (Ws : FVec Ideal ⟨2, ![1023, 1024]⟩ .f32) (bs : FVec Ideal ⟨1, ![1023]⟩ .f32)
    (Wl : FVec Ideal ⟨2, ![1024, 1024]⟩ .f32) (bl : FVec Ideal ⟨1, ![1024]⟩ .f32) : FVec Ideal ⟨2, ![16384, 1]⟩ .f32 :=
  fun i => rowOut (fun q => x (ix2 (i 0) q)) (fun k q => Ws (ix2 k q)) (fun k => bs (ix1 k)) (fun l q => Wl (ix2 l q)) (fun l => bl (ix1 l))

theorem G_apply (x : FVec Ideal ⟨2, ![16384, 1024]⟩ .f32) (Ws : FVec Ideal ⟨2, ![1023, 1024]⟩ .f32) (bs : FVec Ideal ⟨1, ![1023]⟩ .f32)
    (Wl : FVec Ideal ⟨2, ![1024, 1024]⟩ .f32) (bl : FVec Ideal ⟨1, ![1024]⟩ .f32) (b : Fin 16384) (u : Fin 1) :
    G x Ws bs Wl bl (ix2 b u)
      = rowOut (fun q => x (ix2 b q)) (fun k q => Ws (ix2 k q)) (fun k => bs (ix1 k)) (fun l q => Wl (ix2 l q)) (fun l => bl (ix1 l)) := rfl

end Cert.Tree

end
-- ==== Proof.LibInterleave.lean ====
/-
  Layout operations read at an index given by coordinates, for the shapes a `jnp.stack([u, v], axis=-1).reshape(a, 2 * b)`
  and a `keepdims` reduction print as: a trailing unit axis added by a shape cast or by a `broadcast_in_dim`, two
  `[a, b, 1]` pieces concatenated along the last axis, the `[a, b, 2]` result flattened to `[a, 2 * b]` (so that column
  `j` holds piece `j % 2` at column `j / 2`: the two pieces interleaved), a vector turned into a column, a row
  broadcast over many rows, and a scalar broadcast to any shape. General in the extents; nothing here depends on a program.
-/
import Idealize.ShloMosaic.Lib.ValueLayout

namespace Cert.LibInterleave

open Idealize.ShloMosaic Idealize.ShloMosaic.ValueIdx

variable {α : Type}

/-- An `[a, b]` array cast to `[a, b, 1]` reads, at `(i, k, u)`, the operand at `(i, k)`. -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_two, Shape.rowMajor_val_three]
    show i.val * b + k.val = (i.val * b + k.val) * 1 + u.val
    rw [hu, Nat.mul_one, Nat.add_zero])

/-- An `[a, b]` array broadcast (`dims = [0, 1]`) to `[a, b, 1]` reads, at `(i, k, u)`, the operand at `(i, k)`. -/
theorem broadcastInDim_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (k : Fin b) (u : Fin 1) :
    broadcastInDim ⟨3, ![a, b, 1]⟩ (![0, 1] : Fin 2 → Fin 3) h x (ix3 i k u) = x (ix2 i k) := by
  refine broadcastInDim_apply _ h x (ix3 i k u) (ix2 i k) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl

/-- Two `[a, b, 1]` pieces concatenated along the last axis read, at `(i, k, e)`, the first piece for `e = 0` and the
    second for `e = 1`, each at `(i, k, 0)`. -/
theorem concatenate_ab1_ab1_apply {a b : ℕ} (A C : (⟨3, ![a, b, 1]⟩ : Shape).Idx → α)
    (h : Shape.Concatenates [(⟨3, ![a, b, 1]⟩ : Shape), ⟨3, ![a, b, 1]⟩] ⟨3, ![a, b, 2]⟩ 2) (i : Fin a) (k : Fin b) (e : Fin 2) :
    concatenate ⟨3, ![a, b, 2]⟩ 2 [⟨⟨3, ![a, b, 1]⟩, A⟩, ⟨⟨3, ![a, b, 1]⟩, C⟩] h (ix3 i k e)
      = if e.val = 0 then A (ix3 i k (0 : Fin 1)) else C (ix3 i k (0 : Fin 1)) := by
  match e with
  | ⟨0, _⟩ =>
    rw [if_pos rfl]
    exact concatenate_pair_apply_left 2 A C h _ rfl (ix3 i k (0 : Fin 1)) fun c =>
      match c with | ⟨0, _⟩ => rfl | ⟨1, _⟩ => rfl | ⟨2, _⟩ => rfl
  | ⟨1, _⟩ =>
    rw [if_neg (Nat.succ_ne_zero 0)]
    exact concatenate_pair_apply_right 2 A C h _ rfl rfl (ix3 i k (0 : Fin 1))
      (fun c hc => match c, hc with
        | ⟨0, _⟩, _ => rfl
        | ⟨1, _⟩, _ => rfl
        | ⟨2, _⟩, hc => absurd rfl hc)
      rfl

/-- An `[a, b, 2]` array flattened to `[a, m]` (so `m = 2 * b`) reads, at `(i, j)`, the operand at `(i, j / 2, j % 2)`. -/
theorem shapeCast_ab2_am_apply {a b m : ℕ} (x : (⟨3, ![a, b, 2]⟩ : Shape).Idx → α)
    (h : (⟨3, ![a, b, 2]⟩ : Shape).ShapeCasts ⟨2, ![a, m]⟩) (i : Fin a) (j : Fin m) (k : Fin b) (e : Fin 2)
    (hk : k.val = j.val / 2) (he : e.val = j.val % 2) :
    shapeCast ⟨2, ![a, m]⟩ x h (ix2 i j) = x (ix3 i k e) := by
  have hm : m = b * 2 := by
    have h' : a * m = a * (b * 2) := by
      have h0 : (⟨2, ![a, m]⟩ : Shape).numel = (⟨3, ![a, b, 2]⟩ : Shape).numel := h
      rw [Shape.numel, Shape.numel, Fin.prod_univ_two, Fin.prod_univ_three] at h0
      exact h0.trans (Nat.mul_assoc a b 2)
    exact Nat.eq_of_mul_eq_mul_left (Nat.lt_of_le_of_lt (Nat.zero_le _) i.isLt) h'
  refine shapeCast_apply x h _ _ ?_
  rw [Shape.rowMajor_val_three, Shape.rowMajor_val_two]
  show (i.val * b + k.val) * 2 + e.val = i.val * m + j.val
  have hj := Nat.div_add_mod j.val 2
  have him : i.val * m = i.val * b * 2 := by rw [hm, Nat.mul_assoc]
  omega

/-- THE INTERLEAVE: two `[a, b, 1]` pieces concatenated along the last axis and flattened to `[a, m]` read, at `(i, j)`,
    the first piece for an even `j` and the second for an odd one, at `(i, j / 2, 0)`. -/
theorem interleave_apply {a b m : ℕ} (A C : (⟨3, ![a, b, 1]⟩ : Shape).Idx → α)
    (hc : Shape.Concatenates [(⟨3, ![a, b, 1]⟩ : Shape), ⟨3, ![a, b, 1]⟩] ⟨3, ![a, b, 2]⟩ 2)
    (h2 : (⟨3, ![a, b, 2]⟩ : Shape).ShapeCasts ⟨2, ![a, m]⟩) (i : Fin a) (j : Fin m) (k : Fin b) (hk : k.val = j.val / 2) :
    shapeCast ⟨2, ![a, m]⟩ (concatenate ⟨3, ![a, b, 2]⟩ 2 [⟨⟨3, ![a, b, 1]⟩, A⟩, ⟨⟨3, ![a, b, 1]⟩, C⟩] hc) h2 (ix2 i j)
      = if j.val % 2 = 0 then A (ix3 i k (0 : Fin 1)) else C (ix3 i k (0 : Fin 1)) := by
  have he : j.val % 2 < 2 := Nat.mod_lt _ (by decide)
  refine (shapeCast_ab2_am_apply _ h2 i j k ⟨j.val % 2, he⟩ hk rfl).trans ?_
  exact concatenate_ab1_ab1_apply A C hc i k ⟨j.val % 2, he⟩

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a]` array broadcast (`dims = [0]`) to the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A `[b]` array broadcast (`dims = [1]`) to the row `[1, b]` reads, at `(u, k)`, the operand at `k`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (k : Fin b) :
    broadcastInDim ⟨2, ![1, b]⟩ (![1] : Fin 1 → Fin 2) h x (ix2 u k) = x (ix1 k) := by
  refine broadcastInDim_apply _ h x (ix2 u k) (ix1 k) fun ax => ?_
  match ax with
  | ⟨0, _⟩ =>
    show k.val = if b = 1 then 0 else k.val
    split
    · have := k.isLt; omega
    · rfl

/-- A `[1, b]` row broadcast (`dims = [0, 1]`) to `[a, b]` reads, at `(i, k)`, the row at `k`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (i : Fin a) (k : Fin b) :
    broadcastInDim ⟨2, ![a, b]⟩ (![0, 1] : Fin 2 → Fin 2) h x (ix2 i k) = x (ix2 (0 : Fin 1) k) := by
  refine broadcastInDim_apply _ h x (ix2 i k) (ix2 (0 : Fin 1) k) fun ax => ?_
  match ax with
  | ⟨0, _⟩ => rfl
  | ⟨1, _⟩ =>
    show k.val = if b = 1 then 0 else k.val
    split
    · have := k.isLt; omega
    · rfl

/-- A scalar (rank 0) broadcast to any shape reads, at every index, its one value. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

end Cert.LibInterleave
-- ==== Proof.TreeLevels.lean ====
/-
  One level of the tree after another. An array `w : [B, n]` HOLDS DEPTH `d` (`IsLevel`) when its entry `(b, j)` is the
  weight with which row `b` reaches node `j` of depth `d`. Both programs go from depth `d` to depth `d + 1` the same way:
  cut the `n` probabilities of that depth out of the probability matrix (columns `2 ^ d - 1 …`), form `w · (1 - p)` and
  `w · p`, give each a trailing unit axis (the pair, `IsPair`), concatenate the two along it and flatten: column `j` of
  the result is the left factor for an even `j` and the right one for an odd `j`, of node `j / 2` — which is the
  recursion of `Cert.Tree.treeW`. The kernel adds the unit axis by a shape cast and writes `1` as a splat scalar; the
  reference adds it by a `broadcast_in_dim` and writes `1` as a broadcast rank-0 constant.
-/
import proofs.«164154_j57518202028582_1_alg».proof.Proof.TreeSpec
import proofs.«164154_j57518202028582_1_alg».proof.Proof.LibInterleave
import Idealize.ShloMosaic.Lib.ValueLayout

noncomputable section

namespace Cert.Tree

open Idealize.ShloMosaic Idealize.ShloMosaic.ValueIdx Cert.LibInterleave

/-- `w` holds the depth-`d` weights of every row, `pr b` being row `b`'s split probabilities. -/
def IsLevel {B n : ℕ} (d : ℕ) (pr : Fin B → ℕ → EReal) (w : FVec Ideal ⟨2, ![B, n]⟩ .f32) : Prop :=
  ∀ (b : Fin B) (j : Fin n), w (ix2 b j) = treeW (pr b) d j.val

/-- `A` and `C` hold, for every node `k` of depth `d`, the weights of its left and of its right child. -/
def IsPair {B n : ℕ} (d : ℕ) (pr : Fin B → ℕ → EReal) (A C : FVec Ideal ⟨3, ![B, n, 1]⟩ .f32) : Prop :=
  ∀ (b : Fin B) (k : Fin n) (u : Fin 1),
    A (ix3 b k u) = treeW (pr b) d k.val * (one - pr b (2 ^ d - 1 + k.val))
      ∧ C (ix3 b k u) = treeW (pr b) d k.val * pr b (2 ^ d - 1 + k.val)

/-- The root: a column of ones (a splat scalar) holds depth 0. -/
theorem isLevel_zero_splat {B : ℕ} (pr : Fin B → ℕ → EReal) :
    IsLevel 0 pr (broadcast (⟨2, ![B, 1]⟩ : Shape) (Scalar.ofBits (F := Ideal) .f32 0x3F800000#32)) :=
  fun _ _ => rfl

/-- The root: a column of ones (a broadcast rank-0 constant) holds depth 0. -/
theorem isLevel_zero_bcast {B : ℕ} (pr : Fin B → ℕ → EReal)
    (h : (⟨0, ![]⟩ : Shape).BroadcastsInDim ⟨2, ![B, 1]⟩ (![] : Fin 0 → Fin 2)) :
    IsLevel 0 pr (broadcastInDim ⟨2, ![B, 1]⟩ (![] : Fin 0 → Fin 2) h (constant (F := Ideal) ⟨0, ![]⟩ .f32 0x3F800000#32)) :=
  fun b j => (broadcastInDim_scalar_apply _ h (ix2 b j)).trans rfl

/-- The slice of depth `d`'s probabilities out of the probability matrix, at `(b, k)`. -/
theorem slice_prob {B n N : ℕ} {d : ℕ} {pr : Fin B → ℕ → EReal} (off : ℕ) (hoff : off = 2 ^ d - 1)
    (P : FVec Ideal ⟨2, ![B, N]⟩ .f32) (hP : ∀ (b : Fin B) (q : Fin N), P (ix2 b q) = pr b q.val)
    (hs : (⟨2, ![B, N]⟩ : Shape).Slices ![0, off] ⟨2, ![B, n]⟩) (b : Fin B) (k : Fin n) :
    extractStridedSlice ⟨2, ![B, n]⟩ ![0, off] P hs (ix2 b k) = pr b (2 ^ d - 1 + k.val) := by
  subst hoff
  rw [slice2_axis1_eq _ P hs b k, hP]

/-- The kernel's step from a level to the pair of its children (unit axis by a shape cast, `1` a splat scalar). -/
theorem isPair_of_level_cast {B n N : ℕ} {d : ℕ} {pr : Fin B → ℕ → EReal}
    {w : FVec Ideal ⟨2, ![B, n]⟩ .f32} (hw : IsLevel d pr w) (off : ℕ) (hoff : off = 2 ^ d - 1)
    (P : FVec Ideal ⟨2, ![B, N]⟩ .f32) (hP : ∀ (b : Fin B) (q : Fin N), P (ix2 b q) = pr b q.val)
    (hs : (⟨2, ![B, N]⟩ : Shape).Slices ![0, off] ⟨2, ![B, n]⟩)
    (h1 : (⟨2, ![B, n]⟩ : Shape).ShapeCasts ⟨3, ![B, n, 1]⟩) :
    IsPair d pr
      (shapeCast ⟨3, ![B, n, 1]⟩ (mulf w (subf (broadcast ⟨2, ![B, n]⟩ (Scalar.ofBits (F := Ideal) .f32 0x3F800000#32))
        (extractStridedSlice ⟨2, ![B, n]⟩ ![0, off] P hs))) h1)
      (shapeCast ⟨3, ![B, n, 1]⟩ (mulf w (extractStridedSlice ⟨2, ![B, n]⟩ ![0, off] P hs)) h1) := by
  intro b k u
  constructor
  · rw [shapeCast_ab_ab1_apply, mulf_apply, subf_apply, broadcast_apply, hw b k, slice_prob off hoff P hP hs b k]
    rfl
  · rw [shapeCast_ab_ab1_apply, mulf_apply, hw b k, slice_prob off hoff P hP hs b k]

/-- The reference's step from a level to the pair of its children (unit axis by a `broadcast_in_dim`, `1` a broadcast
    rank-0 constant). -/
theorem isPair_of_level_bcast {B n N : ℕ} {d : ℕ} {pr : Fin B → ℕ → EReal}
    {w : FVec Ideal ⟨2, ![B, n]⟩ .f32} (hw : IsLevel d pr w) (off : ℕ) (hoff : off = 2 ^ d - 1)
    (P : FVec Ideal ⟨2, ![B, N]⟩ .f32) (hP : ∀ (b : Fin B) (q : Fin N), P (ix2 b q) = pr b q.val)
    (hs : (⟨2, ![B, N]⟩ : Shape).Slices ![0, off] ⟨2, ![B, n]⟩)
    (h0 : (⟨0, ![]⟩ : Shape).BroadcastsInDim ⟨2, ![B, n]⟩ (![] : Fin 0 → Fin 2))
    (h1 : (⟨2, ![B, n]⟩ : Shape).BroadcastsInDim ⟨3, ![B, n, 1]⟩ (![0, 1] : Fin 2 → Fin 3)) :
    IsPair d pr
      (broadcastInDim ⟨3, ![B, n, 1]⟩ (![0, 1] : Fin 2 → Fin 3) h1
        (mulf w (subf (broadcastInDim ⟨2, ![B, n]⟩ (![] : Fin 0 → Fin 2) h0 (constant (F := Ideal) ⟨0, ![]⟩ .f32 0x3F800000#32))
          (extractStridedSlice ⟨2, ![B, n]⟩ ![0, off] P hs))))
      (broadcastInDim ⟨3, ![B, n, 1]⟩ (![0, 1] : Fin 2 → Fin 3) h1 (mulf w (extractStridedSlice ⟨2, ![B, n]⟩ ![0, off] P hs))) := by
  intro b k u
  constructor
  · rw [broadcastInDim_ab_ab1_apply, mulf_apply, subf_apply, broadcastInDim_scalar_apply, hw b k,
      slice_prob off hoff P hP hs b k]
    rfl
  · rw [broadcastInDim_ab_ab1_apply, mulf_apply, hw b k, slice_prob off hoff P hP hs b k]

/-- The pair concatenated along its unit axis and flattened holds the next depth. -/
theorem isLevel_of_pair {B n m : ℕ} {d : ℕ} {pr : Fin B → ℕ → EReal} {A C : FVec Ideal ⟨3, ![B, n, 1]⟩ .f32}
    (hp : IsPair d pr A C) (hm : m = 2 * n)
    (hc : Shape.Concatenates [(⟨3, ![B, n, 1]⟩ : Shape), ⟨3, ![B, n, 1]⟩] ⟨3, ![B, n, 2]⟩ 2)
    (h2 : (⟨3, ![B, n, 2]⟩ : Shape).ShapeCasts ⟨2, ![B, m]⟩) :
    IsLevel (d + 1) pr
      (shapeCast ⟨2, ![B, m]⟩ (concatenate ⟨3, ![B, n, 2]⟩ 2 [⟨⟨3, ![B, n, 1]⟩, A⟩, ⟨⟨3, ![B, n, 1]⟩, C⟩] hc) h2) := by
  intro b j
  have hk : j.val / 2 < n := by have := j.isLt; omega
  rw [interleave_apply A C hc h2 b j ⟨j.val / 2, hk⟩ rfl, treeW_succ]
  by_cases he : j.val % 2 = 0
  · rw [if_pos he, if_pos he, (hp b ⟨j.val / 2, hk⟩ 0).1]
  · rw [if_neg he, if_neg he, (hp b ⟨j.val / 2, hk⟩ 0).2]

/-- A level multiplied entry by entry with another array, at `(b, j)`. -/
theorem mul_level_apply {B n : ℕ} {d : ℕ} {pr : Fin B → ℕ → EReal} {w : FVec Ideal ⟨2, ![B, n]⟩ .f32} (hw : IsLevel d pr w)
    (v : FVec Ideal ⟨2, ![B, n]⟩ .f32) (b : Fin B) (j : Fin n) :
    mulf w v (ix2 b j) = treeW (pr b) d j.val * v (ix2 b j) := by
  rw [mulf_apply, hw b j]

end Cert.Tree

end
-- ==== Proof.LibDotNT.lean ====
/-
  A matrix product against a transposed right operand — `einsum("bd,nd->bn")`: both operands contract their axis 1, the
  result's axes are the two axes 0 — read at an index of the ideal instance as a plain sum over the contracted
  coordinate: `∑ q, lhs (i, q) * rhs (j, q)`. Once for a kernel's `tpu.matmul` into the zero accumulator, once for the
  host's `dot_general`. General in the three extents and in the record, which is named only by its six lists.
-/
import Idealize.ShloMosaic.PureOps.Ideal.Laws
import Idealize.ShloMosaic.Lib.ValueIdx

namespace Cert.LibDotNT

open Idealize.ShloMosaic Idealize.ShloMosaic.ValueIdx

section Axes
variable {M N K : ℕ} (D : DotDims (⟨2, ![M, K]⟩ : Shape) ⟨2, ![N, K]⟩ ⟨2, ![M, N]⟩)

/-- One contracting axis on the left: the contraction shape has rank one. -/
private theorem contr_rank (hlc : D.lhsContracting = [1]) : D.contr.rank = 1 := by
  rw [D.rank_contr, hlc]; rfl

/-- Its one extent is the left operand's extent on axis 1, which is `K`. -/
private theorem contr_size (hlc : D.lhsContracting = [1]) :
    D.contr.size ⟨0, by rw [contr_rank D hlc]; exact Nat.one_pos⟩ = K := by
  have h := D.size_contr 0 (by rw [hlc]; exact Nat.one_pos)
  rw [List.getElem_of_eq hlc] at h
  exact h

/-- A coordinate of an index depends on the axis's position only through its value. -/
private theorem coord_val_congr {s : Shape} (j : s.Idx) (p q : Nat) (hp : p < s.rank) (hq : q < s.rank) (h : p = q) :
    (j ⟨p, hp⟩).val = (j ⟨q, hq⟩).val := by subst h; rfl

/-- The left operand's axis 0 is its one non-contracting axis, first among the result's axes (no batch axes before
    it): it reads the result index's coordinate 0. -/
private theorem lhs_axis0 (hln : D.lhsNonContracting = [0]) (hlb : D.lhsBatch = [])
    (j : (⟨2, ![M, N]⟩ : Shape).Idx) (k : D.contr.Idx) : (D.lhsIdx j k 0).val = (j 0).val := by
  have hb : (0 : Fin 2) ∉ D.lhsBatch := by rw [hlb]; exact List.not_mem_nil
  have hn : (0 : Fin 2) ∈ D.lhsNonContracting := by rw [hln]; exact List.mem_singleton.mpr rfl
  unfold DotDims.lhsIdx
  rw [dif_neg hb, dif_pos hn]
  simp only [Fin.val_cast]
  exact coord_val_congr j _ _ _ _ (by simp [hlb, hln])

/-- The right operand's axis 0 is its one non-contracting axis, placed after the left operand's one: it reads the
    result index's coordinate 1. -/
private theorem rhs_axis0 (hln : D.lhsNonContracting = [0]) (hrn : D.rhsNonContracting = [0]) (hlb : D.lhsBatch = [])
    (hrb : D.rhsBatch = []) (j : (⟨2, ![M, N]⟩ : Shape).Idx) (k : D.contr.Idx) : (D.rhsIdx j k 0).val = (j 1).val := by
  have hb : (0 : Fin 2) ∉ D.rhsBatch := by rw [hrb]; exact List.not_mem_nil
  have hn : (0 : Fin 2) ∈ D.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction's sum, re-indexed through the contraction shape's one coordinate: at result index `(i, j)` and
    contraction coordinate `q` the left operand is read at `(i, q)` and the right one at `(j, q)`. -/
private theorem sum_contr_nt {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (lhs : FVec Ideal ⟨2, ![M, K]⟩ φ₁) (rhs : FVec Ideal ⟨2, ![N, K]⟩ φ₂) (i : Fin M) (j : Fin N) :
    ∑ k : D.contr.Idx, lhs (D.lhsIdx (ix2 i j) k) * rhs (D.rhsIdx (ix2 i j) k)
      = ∑ q : Fin K, lhs (ix2 i q) * rhs (ix2 j q) := by
  have hr := contr_rank D hlc
  have hs := contr_size D hlc
  rw [← Equiv.sum_comp (contrEquiv1 D K hr hs).symm]
  refine Finset.sum_congr rfl fun q _ => ?_
  have hl : D.lhsIdx (ix2 i j) ((contrEquiv1 D K hr hs).symm q) = ix2 i q := by
    funext a
    apply Fin.ext
    match a with
    | ⟨0, _⟩ => exact lhs_axis0 D hln hlb _ _
    | ⟨1, _⟩ => exact (D.lhsIdx_val_of_single hlc _ _).trans (contrEquiv1_symm_val D K hr hs q)
  have hr' : D.rhsIdx (ix2 i j) ((contrEquiv1 D K hr hs).symm q) = ix2 j q := by
    funext a
    apply Fin.ext
    match a with
    | ⟨0, _⟩ => exact rhs_axis0 D hln hrn hlb hrb _ _
    | ⟨1, _⟩ => exact (D.rhsIdx_val_of_single hrc _ _).trans (contrEquiv1_symm_val D K hr hs q)
  rw [hl, hr']

end Axes

/-- A kernel's matmul `[M, K] × [N, K] → [M, N]` (contracting both operands' axis 1) into the zero accumulator, at
    `(i, j)`: the sum over `q` of `lhs (i, q) * rhs (j, q)`. -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (lhs : FVec Ideal ⟨2, ![M, K]⟩ φ₁) (rhs : FVec Ideal ⟨2, ![N, K]⟩ φ₂)
    (i : Fin M) (j : Fin N) :
    matmul D prec lhs rhs (constant (F := Ideal) ⟨2, ![M, N]⟩ .f32 0x00000000#32) (ix2 i j)
      = ∑ q : Fin K, lhs (ix2 i q) * rhs (ix2 j q) := by
  show FloatOps.matmul D prec lhs rhs (constant (F := Ideal) ⟨2, ![M, N]⟩ .f32 0x00000000#32) (ix2 i j) = _
  rw [Ideal.matmul_constant_zero_apply]
  exact sum_contr_nt D hlc hrc hln hrn hlb hrb lhs rhs i j

/-- The host's `dot_general` with the same dimension numbers, at `(i, j)`: the same sum. -/
theorem dotGeneral_nt_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (lhs : FVec Ideal ⟨2, ![M, K]⟩ φ₁) (rhs : FVec Ideal ⟨2, ![N, K]⟩ φ₂)
    (i : Fin M) (j : Fin N) :
    Host.dotGeneral D prec lhs rhs (ix2 i j) = ∑ q : Fin K, lhs (ix2 i q) * rhs (ix2 j q) := by
  show FloatOps.dotGeneral D prec .single lhs rhs (ix2 i j) = _
  rw [Ideal.dotGeneral_apply]
  exact sum_contr_nt D hlc hrc hln hrn hlb hrb lhs rhs i j

end Cert.LibDotNT
-- ==== Proof.KernelBlock.lean ====
/-
  What one grid point of the kernel leaves in its output block, row by row: row `r` of the block is the tree's result
  (`Cert.Tree.rowOut`) for row `r` of the point's batch tile, over the whole split and leaf matrices and the two bias rows.

  The body computes the tile's probability matrix `P = σ(x · W_splitᵀ + b_split)` and leaf outputs `x · W_leafᵀ + b_leaf`
  (the casts to bf16 are the identity at the ideal instance), then the ten levels of weights, each from the one before by
  the interleaving step of `Cert.Tree.isLevel_of_pair`, and sums weights times leaf outputs along each row.
-/
import proofs.«164154_j57518202028582_1_alg».proof.Proof.Gen.KernelIdeal.Frame
import proofs.«164154_j57518202028582_1_alg».proof.Proof.TreeLevels
import proofs.«164154_j57518202028582_1_alg».proof.Proof.LibDotNT
import Idealize.ShloMosaic.PureOps.Ideal.Laws

noncomputable section

namespace Cert.KernelIdeal.Block

open Cert.KernelIdeal Cert.KernelIdeal.Gen Idealize.ShloMosaic Idealize.ShloMosaic.ValueIdx
open Cert.Tree Cert.LibInterleave Cert.LibDotNT

/-- The zero offsets of a whole-block access, however spelt. -/
theorem hz2 : (![0, 0] : Fin 2 → Nat) = fun _ => 0 :=
  funext fun a => by match a with | ⟨0, _⟩ => rfl | ⟨1, _⟩ => rfl

/-- The logistic function lane by lane. -/
theorem logistic_apply {s : Shape} {φ : FTy} (a : FVec Ideal s φ) (i : s.Idx) : logistic a i = Ideal.logistic (a i) := rfl

variable (x0 : Vec Ideal S1024x1024 .f32) (x1 : Vec Ideal S1023x1024 .f32) (x2 : Vec Ideal S1x1023 .f32)
  (x3 : Vec Ideal S1024x1024 .f32) (x4 : Vec Ideal S1x1024 .f32)

/-- Row `r`'s split probabilities, node by node. -/
def pr (r : Fin 1024) : ℕ → EReal :=
  prob (fun q => x0 (ix2 r q)) (fun k q => x1 (ix2 k q)) (fun k => x2 (ix2 (0 : Fin 1) k))

/-- The tile's probability matrix at `(r, k)`: the logistic function of row `r`'s score at node `k`. -/
theorem pay3_apply (r : Fin 1024) (k : Fin 1023) : k0_pay3 (F := Ideal) x0 x1 x2 (ix2 r k) = pr x0 x1 x2 r k.val := by
  unfold pr
  rw [prob_of_lt]
  unfold k0_pay3 k0_pay2
  dsimp only
  rw [logistic_apply, addf_apply, matmul_nt_zero_apply _ rfl rfl rfl rfl rfl rfl, broadcastTo_1b_ab_apply, shapeCast_self]
  rfl

/-- The tile's leaf outputs at `(r, l)`. -/
theorem pay4_apply (r l : Fin 1024) :
    k0_pay4 (F := Ideal) x0 x3 x4 (ix2 r l)
      = leaf (fun q => x0 (ix2 r q)) (fun l q => x3 (ix2 l q)) (fun l => x4 (ix2 (0 : Fin 1) l)) l := by
  unfold leaf k0_pay4 k0_pay2
  dsimp only
  rw [addf_apply, matmul_nt_zero_apply _ rfl rfl rfl rfl rfl rfl, broadcastTo_1b_ab_apply, shapeCast_self]
  rfl

/-- Depths 1 and 2. -/
theorem pay5_level : IsLevel 2 (pr x0 x1 x2) (k0_pay5 (F := Ideal) x0 x1 x2) := by
  unfold k0_pay5
  dsimp only
  refine isLevel_of_pair ?_ (by decide) _ _
  refine isPair_of_level_cast ?_ _ (by decide) _ (pay3_apply x0 x1 x2) _ _
  refine isLevel_of_pair ?_ (by decide) _ _
  refine isPair_of_level_cast ?_ _ (by decide) _ (pay3_apply x0 x1 x2) _ _
  exact isLevel_zero_splat _

/-- The children of depth 2. -/
theorem pay78_pair : IsPair 2 (pr x0 x1 x2) (k0_pay7 (F := Ideal) x0 x1 x2) (k0_pay8 (F := Ideal) x0 x1 x2) := by
  unfold k0_pay7 k0_pay8 k0_pay6
  dsimp only
  exact isPair_of_level_cast (pay5_level x0 x1 x2) _ (by decide) _ (pay3_apply x0 x1 x2) _ _

section Generic
variable (v11 : FVec Ideal S1024x1023 .f32) (q : Fin 1024 → ℕ → EReal)
  (hP : ∀ (r : Fin 1024) (k : Fin 1023), v11 (ix2 r k) = q r k.val)
include hP

/-- Depths 3 to 8, from the children of depth 2. -/
theorem pay9_level (v41 v42 : FVec Ideal S1024x4x1 .f32) (hp : IsPair 2 q v41 v42) :
    IsLevel 8 q (k0_pay9 (F := Ideal) v11 v41 v42) := by
  unfold k0_pay9
  dsimp only
  refine isLevel_of_pair ?_ (by decide) _ _
  refine isPair_of_level_cast ?_ _ (by decide) _ hP _ _
  refine isLevel_of_pair ?_ (by decide) _ _
  refine isPair_of_level_cast ?_ _ (by decide) _ hP _ _
  refine isLevel_of_pair ?_ (by decide) _ _
  refine isPair_of_level_cast ?_ _ (by decide) _ hP _ _
  refine isLevel_of_pair ?_ (by decide) _ _
  refine isPair_of_level_cast ?_ _ (by decide) _ hP _ _
  refine isLevel_of_pair ?_ (by decide) _ _
  refine isPair_of_level_cast ?_ _ (by decide) _ hP _ _
  exact isLevel_of_pair hp (by decide) _ _

/-- The children of depth 8. -/
theorem pay1112_pair (v41 v42 : FVec Ideal S1024x4x1 .f32) (hp : IsPair 2 q v41 v42) :
    IsPair 8 q (k0_pay11 (F := Ideal) v11 v41 v42) (k0_pay12 (F := Ideal) v11 v41 v42) := by
  unfold k0_pay11 k0_pay12 k0_pay10
  dsimp only
  exact isPair_of_level_cast (pay9_level v11 q hP v41 v42 hp) _ (by decide) _ hP _ _

/-- Depths 9 and 10 from the children of depth 8, then each row's sum of leaf weight times leaf output. -/
theorem pay1_apply (v16 : FVec Ideal S1024x1024 .f32) (v95 v96 : FVec Ideal S1024x256x1 .f32) (hp : IsPair 8 q v95 v96)
    (r : Fin 1024) (u : Fin 1) :
    k0_pay1 (F := Ideal) v11 v16 v95 v96 (ix2 r u) = ∑ l : Fin 1024, treeW (q r) 10 l.val * v16 (ix2 r l) := by
  unfold k0_pay1
  dsimp only
  rw [shapeCast_a_a1_apply]
  refine (Ideal.multiReduction_add_single _ _ reduces_S1024x1024_S1024 _ _ (ix1 r)).trans ?_
  refine Finset.sum_congr rfl fun (l : Fin 1024) _ => ?_
  have hidx : reduces_S1024x1024_S1024.lift (ix1 r) l = ix2 r l :=
    funext fun a => Fin.ext (by match a with | ⟨0, _⟩ => rfl | ⟨1, _⟩ => rfl)
  rw [hidx]
  exact mul_level_apply
    (isLevel_of_pair (isPair_of_level_cast (isLevel_of_pair hp (by decide) _ _) _ (by decide) _ hP _ _) (by decide) _ _) v16 r l

end Generic

/-- The output block is the body's one store. -/
theorem out_eq : out0_5 x0 x1 x2 x3 x4
    = k0_pay1 (k0_pay3 x0 x1 x2) (k0_pay4 x0 x3 x4)
        (k0_pay11 (k0_pay3 x0 x1 x2) (k0_pay7 x0 x1 x2) (k0_pay8 x0 x1 x2))
        (k0_pay12 (k0_pay3 x0 x1 x2) (k0_pay7 x0 x1 x2) (k0_pay8 x0 x1 x2)) := by
  unfold out0_5
  rw [View.canon_unit_zero hz2]
  simp only [View.ld_unit_zero (S := S1024x1024) hz2, View.ld_unit_zero (S := S1023x1024) hz2,
    View.ld_unit_zero (S := S1x1023) hz2, View.ld_unit_zero (S := S1x1024) hz2]

/-- The output block of a grid point, at row `r`: the soft tree's result for row `r` of the batch tile `x0`, with split
    matrix `x1`, split bias row `x2`, leaf matrix `x3` and leaf bias row `x4`. -/
theorem block_value (r : Fin 1024) (u : Fin 1) :
    out0_5 x0 x1 x2 x3 x4 (ix2 r u)
      = Cert.Tree.rowOut (fun q => x0 (ix2 r q)) (fun k q => x1 (ix2 k q)) (fun k => x2 (ix2 (0 : Fin 1) k))
          (fun l q => x3 (ix2 l q)) (fun l => x4 (ix2 (0 : Fin 1) l)) := by
  rw [out_eq, pay1_apply (k0_pay3 x0 x1 x2) (pr x0 x1 x2) (pay3_apply x0 x1 x2) _ _ _
    (pay1112_pair (k0_pay3 x0 x1 x2) (pr x0 x1 x2) (pay3_apply x0 x1 x2) _ _ (pay78_pair x0 x1 x2)) r u]
  unfold rowOut
  refine Finset.sum_congr rfl fun l _ => ?_
  rw [pay4_apply]
  rfl

end Cert.KernelIdeal.Block

end
-- ==== Proof.KernelArray.lean ====
/-
  From the blocks to the array. The kernel's grid has 16 points; point `t` stages rows `1024 t … 1024 t + 1023` of the
  batch (window 0), the whole split and leaf matrices (windows 1 and 3), the two bias vectors as rows (windows 2 and 4:
  the host reshapes `[1023]` to `[1, 1023]` and `[1024]` to `[1, 1024]` before the call), and writes back block `t` of the
  `[16384, 1]` result (window 5). Row `r` of that block is the tree's result for batch row `1024 t + r`
  (`Block.block_value`), so every block is the restriction of ONE whole-array function, `Cert.Tree.G` of the five
  arguments; the 16 blocks cover the result, and the run ends with the result array equal to it.
-/
import proofs.«164154_j57518202028582_1_alg».proof.Proof.KernelBlock
import Idealize.ShloMosaic.Lib.Pipeline.Value
import Idealize.ShloMosaic.Lib.ValueLayout

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the batch window and the result window move with the point along axis 0, every
    other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 16 := by
  exact lt_of_lt_of_eq t.isLt (show cfg0.N = 16 from N_0)

/-- Window 0's block at point `t` is rows `1024 t … 1024 t + 1023` of the batch. -/
theorem batch_block (c : Dev nD) (t : Fin cfg0.N) (r q : Fin 1024) (hb : 1024 * t.val + r.val < 16384) :
    (iblk m c 0 t : Vec Ideal S1024x1024 .f32) (ix2 r q)
      = (m ((c : Thread nD τ).loc main_arg0) : S16384x1024.Idx → EReal) (ix2 ⟨1024 * t.val + r.val, hb⟩ q) := by
  obtain ⟨e0, e1, -⟩ := idx_facts t
  unfold iblk
  rw [View.read_apply]
  show V m c main_arg0 _ = _
  rw [V_main_arg0]
  show m ((c : Thread nD τ).loc main_arg0) _ = _
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 1024 + 1 * q.val = q.val; rw [e1]; omega

/-- Window 1's one block is the whole split matrix. -/
theorem split_block (c : Dev nD) (t : Fin cfg0.N) (k : Fin 1023) (q : Fin 1024) :
    (iblk m c 1 t : Vec Ideal S1023x1024 .f32) (ix2 k q)
      = (m ((c : Thread nD τ).loc main_arg1) : S1023x1024.Idx → EReal) (ix2 k q) := by
  obtain ⟨-, -, e0, e1, -⟩ := idx_facts t
  unfold iblk
  rw [View.read_apply]
  show V m c main_arg1 _ = _
  rw [V_main_arg1]
  show m ((c : Thread nD τ).loc main_arg1) _ = _
  congr 1
  funext a
  apply Fin.ext
  match a with
  | ⟨0, _⟩ => show win0_1.index t (0 : Fin 2) * 1023 + 1 * k.val = k.val; rw [e0]; omega
  | ⟨1, _⟩ => show win0_1.index t (1 : Fin 2) * 1024 + 1 * q.val = q.val; rw [e1]; omega

/-- Window 3's one block is the whole leaf matrix. -/
theorem leaf_block (c : Dev nD) (t : Fin cfg0.N) (l q : Fin 1024) :
    (iblk m c 3 t : Vec Ideal S1024x1024 .f32) (ix2 l q)
      = (m ((c : Thread nD τ).loc main_arg3) : S1024x1024.Idx → EReal) (ix2 l q) := by
  obtain ⟨-, -, -, -, -, -, e0, e1, -⟩ := idx_facts t
  unfold iblk
  rw [View.read_apply]
  show V m c main_arg3 _ = _
  rw [V_main_arg3]
  show m ((c : Thread nD τ).loc main_arg3) _ = _
  congr 1
  funext a
  apply Fin.ext
  match a with
  | ⟨0, _⟩ => show win0_3.index t (0 : Fin 2) * 1024 + 1 * l.val = l.val; rw [e0]; omega
  | ⟨1, _⟩ => show win0_3.index t (1 : Fin 2) * 1024 + 1 * q.val = q.val; rw [e1]; omega

/-- The split biases as the region finds them: the host's reshape of the argument to one row. -/
theorem split_bias_row (c : Dev nD) : (V m c main_v0 : S1x1023.Idx → EReal)
    = shapeCast S1x1023 (m ((c : Thread nD τ).loc main_arg2)) shapeCasts_S1023_S1x1023 := by
  dsimp only [Gen.V, Gen.hostOps0]; after_results; rfl

/-- The leaf biases as the region finds them: the host's reshape of the argument to one row. -/
theorem leaf_bias_row (c : Dev nD) : (V m c main_v1 : S1x1024.Idx → EReal)
    = shapeCast S1x1024 (m ((c : Thread nD τ).loc main_arg4)) shapeCasts_S1024_S1x1024 := by
  dsimp only [Gen.V, Gen.hostOps0]; after_results; rfl

/-- Window 2's one block is that row: at `(0, k)` the argument's entry `k`. -/
theorem split_bias_block (c : Dev nD) (t : Fin cfg0.N) (k : Fin 1023) :
    (iblk m c 2 t : Vec Ideal S1x1023 .f32) (ix2 (0 : Fin 1) k)
      = (m ((c : Thread nD τ).loc main_arg2) : S1023.Idx → EReal) (ix1 k) := by
  obtain ⟨-, -, -, -, e0, e1, -⟩ := idx_facts t
  unfold iblk
  rw [View.read_apply]
  show (V m c main_v0 : S1x1023.Idx → EReal) _ = _
  rw [split_bias_row]
  refine Eq.trans ?_ (shapeCast_a_1a_apply _ shapeCasts_S1023_S1x1023 (0 : Fin 1) k)
  congr 1
  funext a
  apply Fin.ext
  match a with
  | ⟨0, _⟩ => show win0_2.index t (0 : Fin 2) * 1 + 1 * 0 = 0; rw [e0]
  | ⟨1, _⟩ => show win0_2.index t (1 : Fin 2) * 1023 + 1 * k.val = k.val; rw [e1]; omega

/-- Window 4's one block likewise: at `(0, l)` the argument's entry `l`. -/
theorem leaf_bias_block (c : Dev nD) (t : Fin cfg0.N) (l : Fin 1024) :
    (iblk m c 4 t : Vec Ideal S1x1024 .f32) (ix2 (0 : Fin 1) l)
      = (m ((c : Thread nD τ).loc main_arg4) : S1024.Idx → EReal) (ix1 l) := by
  obtain ⟨-, -, -, -, -, -, -, -, e0, e1, -⟩ := idx_facts t
  unfold iblk
  rw [View.read_apply]
  show (V m c main_v1 : S1x1024.Idx → EReal) _ = _
  rw [leaf_bias_row]
  refine Eq.trans ?_ (shapeCast_a_1a_apply _ shapeCasts_S1024_S1x1024 (0 : Fin 1) l)
  congr 1
  funext a
  apply Fin.ext
  match a with
  | ⟨0, _⟩ => show win0_4.index t (0 : Fin 2) * 1 + 1 * 0 = 0; rw [e0]
  | ⟨1, _⟩ => show win0_4.index t (1 : Fin 2) * 1024 + 1 * l.val = l.val; rw [e1]; omega

/-- One point's output block against the whole-array function: if the five staged blocks are the stated parts of the five
    arrays — the batch block rows `1024 n …` of the batch, the others the whole arrays —, then the block's entry at row
    `y 0` is `Cert.Tree.G` of the arrays at any index whose row is `1024 n + y 0`. -/
theorem point_value (x0 : Vec Ideal S1024x1024 .f32) (x1 : Vec Ideal S1023x1024 .f32) (x2 : Vec Ideal S1x1023 .f32)
    (x3 : Vec Ideal S1024x1024 .f32) (x4 : Vec Ideal S1x1024 .f32)
    (X : FVec Ideal ⟨2, ![16384, 1024]⟩ .f32) (Ws : FVec Ideal ⟨2, ![1023, 1024]⟩ .f32) (bs : FVec Ideal ⟨1, ![1023]⟩ .f32)
    (Wl : FVec Ideal ⟨2, ![1024, 1024]⟩ .f32) (bl : FVec Ideal ⟨1, ![1024]⟩ .f32)
    (n : ℕ) (hn : n < 16)
    (h0 : ∀ r q : Fin 1024, x0 (ix2 r q) = X (ix2 ⟨1024 * n + r.val, by have := r.isLt; omega⟩ q))
    (h1 : ∀ (k : Fin 1023) (q : Fin 1024), x1 (ix2 k q) = Ws (ix2 k q))
    (h2 : ∀ k : Fin 1023, x2 (ix2 (0 : Fin 1) k) = bs (ix1 k))
    (h3 : ∀ l q : Fin 1024, x3 (ix2 l q) = Wl (ix2 l q))
    (h4 : ∀ l : Fin 1024, x4 (ix2 (0 : Fin 1) l) = bl (ix1 l))
    (y : S1024x1.Idx) (i : S16384x1.Idx) (hi : (i 0).val = 1024 * n + (y 0).val) :
    out0_5 x0 x1 x2 x3 x4 y = Cert.Tree.G X Ws bs Wl bl i := by
  have hy0 : (y 0).val < 1024 := (y 0).isLt
  have hi0 : i 0 = (⟨1024 * n + (y 0).val, by omega⟩ : Fin 16384) := Fin.ext hi
  have hy : y = ix2 (⟨(y 0).val, hy0⟩ : Fin 1024) (⟨(y 1).val, (y 1).isLt⟩ : Fin 1) := by
    funext a; match a with | ⟨0, _⟩ => rfl | ⟨1, _⟩ => rfl
  refine (congrArg (out0_5 x0 x1 x2 x3 x4) hy).trans ?_
  refine (Block.block_value x0 x1 x2 x3 x4 _ _).trans ?_
  show _ = Cert.Tree.rowOut (fun q => X (ix2 (i 0) q)) (fun k q => Ws (ix2 k q)) (fun k => bs (ix1 k))
      (fun l q => Wl (ix2 l q)) (fun l => bl (ix1 l))
  rw [hi0]
  simp only [h0, h1, h2, h3, h4]

/-- WHAT POINT `t` WRITES BACK is block `t` of `Cert.Tree.G` of the five argument arrays as launched. -/
theorem flushed_eq (c : Dev nD) (t : Fin cfg0.N) :
    (dats m 0 c).flushed 5 t = ((cfg0.win 5).blk t).view.read (Elt Ideal)
      (Cert.Tree.G (m ((c : Thread nD τ).loc main_arg0)) (m ((c : Thread nD τ).loc main_arg1))
        (m ((c : Thread nD τ).loc main_arg2)) (m ((c : Thread nD τ).loc main_arg3)) (m ((c : Thread nD τ).loc main_arg4))) := by
  show (cfg0.win 5).cut (grid0.coords t) ((dats m 0 c).after 5 t) = _
  rw [after0_5]
  obtain ⟨-, -, -, -, -, -, -, -, -, -, e0, -⟩ := idx_facts t
  have hn := point_lt t
  funext y
  show out0_5 (iblk m c 0 t) (iblk m c 1 t) (iblk m c 2 t) (iblk m c 3 t) (iblk m c 4 t) y
    = Cert.Tree.G _ _ _ _ _ (((cfg0.win 5).blk t).view.emb y)
  refine point_value _ _ _ _ _ _ _ _ _ _ t.val hn (fun r q => batch_block m c t r q _) (split_block m c t)
    (split_bias_block m c t) (leaf_block m c t) (leaf_bias_block m c t) y _ ?_
  show win0_5.index t (0 : Fin 2) * 1024 + 1 * (y 0).val = 1024 * t.val + (y 0).val
  rw [e0]; omega

/-- An index of the result array is in point `t`'s block iff each coordinate is in the block's range on its axis. -/
theorem mem_blk (t : Fin cfg0.N) (i : S16384x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v2).slice (win0_5.rect t)).set ↔ _
  rw [View.set_slice_whole, Rect.mem_set_unit]
  exact Iff.rfl

/-- The 16 blocks cover the result: row `b` lies in the block of point `b / 1024`. -/
theorem cover (i : S16384x1.Idx) :
    ∃ t : Fin cfg0.N, (cfg0.win 5).flush t = true ∧ i ∈ ((cfg0.win 5).blk t).view.set := by
  have hi0 : (i 0).val < 16384 := (i 0).isLt
  have hi1 : (i 1).val < 1 := (i 1).isLt
  obtain ⟨t, ht⟩ : ∃ t : Fin cfg0.N, t.val = (i 0).val / 1024 :=
    ⟨⟨(i 0).val / 1024, lt_of_lt_of_eq (by omega : (i 0).val / 1024 < 16) (show cfg0.N = 16 from N_0).symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 1 ≤ (i 1).val ∧ (i 1).val < win0_5.index t (1 : Fin 2) * 1 + 1
    rw [e1]; omega

/-- THE RESULT ARRAY after the run: `Cert.Tree.G` of the five argument arrays. -/
theorem final (c : Dev nD) : (dats m 0 c).arrAt 5 cfg0.N
    = (Cert.Tree.G (m ((c : Thread nD τ).loc main_arg0)) (m ((c : Thread nD τ).loc main_arg1))
        (m ((c : Thread nD τ).loc main_arg2)) (m ((c : Thread nD τ).loc main_arg3)) (m ((c : Thread nD τ).loc main_arg4))) :=
  (dats m 0 c).arrAt_eq_of_cover 5 _ (fun t _ => flushed_eq m c t) cover

/-- Every weakly fair execution of the idealized kernel's @main terminates with the result array at `Cert.Tree.G` of the
    five argument arrays as launched, and the arguments unchanged. -/
theorem run : θ_run defs (onTc (τ := τ) (main (F := Ideal))) ⟨m, fun _ => 0, ρ⟩ fun r => ∀ c : Dev nD,
      r.2.mem ((c : Thread nD τ).loc main_v2)
        = Cert.Tree.G (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.Array

end
-- ==== Proof.RefStretch.lean ====
/-
  The reference's 122 host operations, read in stretches. The first 18 compute the probability matrix `[16384, 1023]`
  (the logistic function spelt `1 / (1 + exp (-s))`), the leaf outputs `[16384, 1024]` and the root's column of ones;
  then come ten stretches of 10 operations, each taking the weights one level down; the last 4 multiply by the leaf
  outputs and sum along each row. This module names the stretches, says how a stretch is opened (its operations' results
  read one by one), and reads the first stretch.
-/
import proofs.«164154_j57518202028582_1_alg».proof.Proof.RefRun
import proofs.«164154_j57518202028582_1_alg».proof.Proof.TreeLevels
import proofs.«164154_j57518202028582_1_alg».proof.Proof.LibDotNT
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx
open Cert.Tree Cert.LibInterleave Cert.LibDotNT

/-- The buffers' contents after two stretches of operations are the second's after the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The f32 word of `1.0` is the number one. -/
theorem one_eq : (Ideal.ofBits .f32 0x3F800000#32 : EReal) = 1 := by
  simp [Ideal.ofBits, Ideal.ieee, -EReal.coe_mul]; norm_num

/-- The first 18 operations: probabilities, leaf outputs, the root's ones. -/
abbrev opsHead : List (HloOp τ sig (Elt Ideal)) := (ops (F := Ideal)).take 18
/-- The 10 operations that take the weights from depth `d` to depth `d + 1`. -/
abbrev opsLvl (d : ℕ) : List (HloOp τ sig (Elt Ideal)) := ((ops (F := Ideal)).drop (18 + 10 * d)).take 10
/-- The last 4 operations: the product with the leaf outputs and the row sums. -/
abbrev opsTail : List (HloOp τ sig (Elt Ideal)) := (ops (F := Ideal)).drop 118

/-- Write a stretch out as a literal list and read the buffers after it operation by operation. -/
macro "open_stretch" : tactic =>
  `(tactic| (simp only [opsHead, opsLvl, opsTail, ops, List.take_succ_cons, List.take_zero, List.drop_succ_cons, List.drop_zero]
             after_results))

/-- No operation of a literal list writes the buffer in question. -/
macro "none_writes" : tactic =>
  `(tactic| (refine List.forall_iff_forall_mem.mp ?_
             simp only [ops, List.drop_succ_cons, List.drop_zero, List.Forall, nullary_writes, unary_writes, binary_writes,
               reshape_writes, Finset.mem_singleton]
             repeat' apply And.intro
             all_goals exact devRef_ne_of_ne (by decide)))

variable (V : Valuation τ sig (Elt Ideal))

/-- Row `b`'s split probabilities, node by node, from the argument arrays in `V`. -/
def pr (b : Fin 16384) : ℕ → EReal :=
  prob (fun q => V (Proc.devRef .tc main_arg0) (ix2 b q)) (fun k q => V (Proc.devRef .tc main_arg1) (ix2 k q))
    (fun k => V (Proc.devRef .tc main_arg2) (ix1 k))

/-! ## The first stretch -/

/-- After the first stretch, `main_v9` holds the probability matrix: `1 / (1 + exp (-s))` is the logistic function. -/
theorem head_v9 (b : Fin 16384) (k : Fin 1023) :
    after opsHead V (Proc.devRef .tc main_v9) (ix2 b k) = pr V b k.val := by
  unfold pr
  rw [prob_of_lt]
  open_stretch
  simp only [Host.divf, Host.exp, Host.negf, addf, Ideal.hostDivf_def, Ideal.hostUnary_exp_def, Ideal.hostNegf_def,
    Ideal.negf_def, Ideal.addf_def]
  rw [broadcastInDim_scalar_apply, dotGeneral_nt_apply _ rfl rfl rfl rfl rfl rfl, broadcastInDim_1b_ab_apply,
    broadcastInDim_b_1b_apply, constant_apply, one_eq]
  rfl

/-- After the first stretch, `main_v13` holds the leaf outputs. -/
theorem head_v13 (b : Fin 16384) (l : Fin 1024) :
    after opsHead V (Proc.devRef .tc main_v13) (ix2 b l)
      = leaf (fun q => V (Proc.devRef .tc main_arg0) (ix2 b q)) (fun l q => V (Proc.devRef .tc main_arg3) (ix2 l q))
          (fun l => V (Proc.devRef .tc main_arg4) (ix1 l)) l := by
  unfold leaf
  open_stretch
  rw [addf_apply, dotGeneral_nt_apply _ rfl rfl rfl rfl rfl rfl, broadcastInDim_1b_ab_apply, broadcastInDim_b_1b_apply]

/-- After the first stretch, `main_v14` holds the root's weight: a column of ones. -/
theorem head_v14 (q : Fin 16384 → ℕ → EReal) :
    IsLevel (B := 16384) (n := 1) 0 q (after opsHead V (Proc.devRef .tc main_v14)) := by
  open_stretch
  exact isLevel_zero_bcast q _

/-! ## The ten stretches of one level each -/

/-- `main_v9` holds row by row the probabilities `q`. -/
def ProbAt (V : Valuation τ sig (Elt Ideal)) (q : Fin 16384 → ℕ → EReal) : Prop :=
  ∀ (b : Fin 16384) (k : Fin 1023), V (Proc.devRef .tc main_v9) (ix2 b k) = q b k.val

end Cert.ReferenceIdeal.RefValue

end
-- ==== Proof.RefLevels.lean ====
import proofs.«164154_j57518202028582_1_alg».proof.Proof.RefStretch

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx
open Cert.Tree Cert.LibInterleave Cert.LibDotNT

variable {V : Valuation τ sig (Elt Ideal)} {q : Fin 16384 → ℕ → EReal}

/-- Depth 0 to depth 1. -/
theorem level1 (hP : ProbAt V q) (hw : IsLevel (B := 16384) (n := 1) 0 q (V (Proc.devRef .tc main_v14))) :
    IsLevel (B := 16384) (n := 2) 1 q (after (opsLvl 0) V (Proc.devRef .tc main_v23)) := by
  open_stretch
  exact isLevel_of_pair (isPair_of_level_bcast hw _ (by decide) _ hP _ _ _) (by decide) _ _

/-- Depth 1 to depth 2. -/
theorem level2 (hP : ProbAt V q) (hw : IsLevel (B := 16384) (n := 2) 1 q (V (Proc.devRef .tc main_v23))) :
    IsLevel (B := 16384) (n := 4) 2 q (after (opsLvl 1) V (Proc.devRef .tc main_v32)) := by
  open_stretch
  exact isLevel_of_pair (isPair_of_level_bcast hw _ (by decide) _ hP _ _ _) (by decide) _ _

/-- Depth 2 to depth 3. -/
theorem level3 (hP : ProbAt V q) (hw : IsLevel (B := 16384) (n := 4) 2 q (V (Proc.devRef .tc main_v32))) :
    IsLevel (B := 16384) (n := 8) 3 q (after (opsLvl 2) V (Proc.devRef .tc main_v41)) := by
  open_stretch
  exact isLevel_of_pair (isPair_of_level_bcast hw _ (by decide) _ hP _ _ _) (by decide) _ _

/-- Depth 3 to depth 4. -/
theorem level4 (hP : ProbAt V q) (hw : IsLevel (B := 16384) (n := 8) 3 q (V (Proc.devRef .tc main_v41))) :
    IsLevel (B := 16384) (n := 16) 4 q (after (opsLvl 3) V (Proc.devRef .tc main_v50)) := by
  open_stretch
  exact isLevel_of_pair (isPair_of_level_bcast hw _ (by decide) _ hP _ _ _) (by decide) _ _

/-- Depth 4 to depth 5. -/
theorem level5 (hP : ProbAt V q) (hw : IsLevel (B := 16384) (n := 16) 4 q (V (Proc.devRef .tc main_v50))) :
    IsLevel (B := 16384) (n := 32) 5 q (after (opsLvl 4) V (Proc.devRef .tc main_v59)) := by
  open_stretch
  exact isLevel_of_pair (isPair_of_level_bcast hw _ (by decide) _ hP _ _ _) (by decide) _ _

/-- Depth 5 to depth 6. -/
theorem level6 (hP : ProbAt V q) (hw : IsLevel (B := 16384) (n := 32) 5 q (V (Proc.devRef .tc main_v59))) :
    IsLevel (B := 16384) (n := 64) 6 q (after (opsLvl 5) V (Proc.devRef .tc main_v68)) := by
  open_stretch
  exact isLevel_of_pair (isPair_of_level_bcast hw _ (by decide) _ hP _ _ _) (by decide) _ _

/-- Depth 6 to depth 7. -/
theorem level7 (hP : ProbAt V q) (hw : IsLevel (B := 16384) (n := 64) 6 q (V (Proc.devRef .tc main_v68))) :
    IsLevel (B := 16384) (n := 128) 7 q (after (opsLvl 6) V (Proc.devRef .tc main_v77)) := by
  open_stretch
  exact isLevel_of_pair (isPair_of_level_bcast hw _ (by decide) _ hP _ _ _) (by decide) _ _

/-- Depth 7 to depth 8. -/
theorem level8 (hP : ProbAt V q) (hw : IsLevel (B := 16384) (n := 128) 7 q (V (Proc.devRef .tc main_v77))) :
    IsLevel (B := 16384) (n := 256) 8 q (after (opsLvl 7) V (Proc.devRef .tc main_v86)) := by
  open_stretch
  exact isLevel_of_pair (isPair_of_level_bcast hw _ (by decide) _ hP _ _ _) (by decide) _ _

/-- Depth 8 to depth 9. -/
theorem level9 (hP : ProbAt V q) (hw : IsLevel (B := 16384) (n := 256) 8 q (V (Proc.devRef .tc main_v86))) :
    IsLevel (B := 16384) (n := 512) 9 q (after (opsLvl 8) V (Proc.devRef .tc main_v95)) := by
  open_stretch
  exact isLevel_of_pair (isPair_of_level_bcast hw _ (by decide) _ hP _ _ _) (by decide) _ _

/-- Depth 9 to depth 10. -/
theorem level10 (hP : ProbAt V q) (hw : IsLevel (B := 16384) (n := 512) 9 q (V (Proc.devRef .tc main_v95))) :
    IsLevel (B := 16384) (n := 1024) 10 q (after (opsLvl 9) V (Proc.devRef .tc main_v104)) := by
  open_stretch
  exact isLevel_of_pair (isPair_of_level_bcast hw _ (by decide) _ hP _ _ _) (by decide) _ _

end Cert.ReferenceIdeal.RefValue

end
-- ==== Proof.RefValue.lean ====
/-
  The reference's value. After the first stretch the probability matrix and the leaf outputs stay as they are (nothing
  later writes them), each level stretch takes the weights one depth down (Proof/RefLevels.lean), and the last stretch
  sums weight times leaf output along each row: index by index the result is `Cert.Tree.G` of the five arguments,
  which no operation writes.
-/
import proofs.«164154_j57518202028582_1_alg».proof.Proof.RefLevels

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx
open Cert.Tree Cert.LibInterleave Cert.LibDotNT

variable (V : Valuation τ sig (Elt Ideal)) {q : Fin 16384 → ℕ → EReal}

/-- An operation of a level's stretch is an operation past the first stretch. -/
theorem mem_past_head {d : ℕ} {op : HloOp τ sig (Elt Ideal)} (h : op ∈ opsLvl d) : op ∈ (ops (F := Ideal)).drop 18 := by
  have h1 : op ∈ (ops (F := Ideal)).drop (18 + 10 * d) := List.mem_of_mem_take h
  rw [← List.drop_drop] at h1
  exact List.mem_of_mem_drop h1

/-- Past the first stretch nothing writes the probability matrix, -/
theorem v9_kept : ∀ op ∈ (ops (F := Ideal)).drop 18, Proc.devRef .tc main_v9 ∉ op.writes := by none_writes
/-- nor the leaf outputs. -/
theorem v13_kept : ∀ op ∈ (ops (F := Ideal)).drop 18, Proc.devRef .tc main_v13 ∉ op.writes := by none_writes

theorem lvl_v9 (d : ℕ) : after (opsLvl d) V (Proc.devRef .tc main_v9) = V (Proc.devRef .tc main_v9) :=
  after_of_forall_not_mem _ _ fun op hop => v9_kept op (mem_past_head hop)
theorem lvl_v13 (d : ℕ) : after (opsLvl d) V (Proc.devRef .tc main_v13) = V (Proc.devRef .tc main_v13) :=
  after_of_forall_not_mem _ _ fun op hop => v13_kept op (mem_past_head hop)

theorem probAt_lvl {d : ℕ} (h : ProbAt V q) : ProbAt (after (opsLvl d) V) q := fun b k => by
  rw [lvl_v9]; exact h b k

/-! ## The last stretch -/

/-- The row sums' shape relation, as the kernel side spells it. -/
theorem hred : S16384x1024.Reduces [1] S16384 := by decide

/-- After the last stretch, the result at row `b` is the row's sum of weight times leaf output. -/
theorem tail_v107 (A L : FVec Ideal S16384x1024 .f32) (hA : V (Proc.devRef .tc main_v104) = A)
    (hL : V (Proc.devRef .tc main_v13) = L) (b : Fin 16384) (u : Fin 1) :
    ∑ l : Fin 1024, A (ix2 b l) * L (ix2 b l) = after opsTail V (Proc.devRef .tc main_v107) (ix2 b u) := by
  subst hA hL
  symm
  open_stretch
  rw [broadcastInDim_a_a1_apply]
  unfold Host.reduceAdd
  refine (Ideal.hostReduceAdd_single reducesTo_S16384x1024_S16384_d1 hred _ _ (ix1 b)).trans ?_
  refine (congrArg (· + _) (Ideal.ofBits_zero_f32)).trans ?_
  rw [zero_add]
  refine Finset.sum_congr rfl fun (l : Fin 1024) _ => ?_
  have hidx : hred.lift (ix1 b) l = ix2 b l :=
    funext fun a => Fin.ext (by match a with | ⟨0, _⟩ => rfl | ⟨1, _⟩ => rfl)
  rw [hidx, mulf_apply]

/-! ## The stretches in a row -/

/-- The 122 operations are the stretches laid end to end. -/
theorem ops_split : (ops (F := Ideal)) = opsHead ++ (opsLvl 0 ++ (opsLvl 1 ++ (opsLvl 2 ++ (opsLvl 3 ++ (opsLvl 4 ++
    (opsLvl 5 ++ (opsLvl 6 ++ (opsLvl 7 ++ (opsLvl 8 ++ (opsLvl 9 ++ opsTail)))))))))) := by
  rfl

/-- The buffers after the first stretch and `n` level stretches. -/
def W : ℕ → Valuation τ sig (Elt Ideal)
  | 0 => after opsHead V
  | n + 1 => after (opsLvl n) (W n)

theorem after_ops : after ops V = after opsTail (W V 10) := by
  conv_lhs => rw [ops_split]
  simp only [after_append]
  rfl

theorem probAt_W : ∀ n : ℕ, ProbAt (W V n) (pr V)
  | 0 => head_v9 V
  | n + 1 => probAt_lvl (W V n) (probAt_W n)

theorem leafAt_W : ∀ (n : ℕ) (b : Fin 16384) (l : Fin 1024), W V n (Proc.devRef .tc main_v13) (ix2 b l)
      = leaf (fun q => V (Proc.devRef .tc main_arg0) (ix2 b q)) (fun l q => V (Proc.devRef .tc main_arg3) (ix2 l q))
          (fun l => V (Proc.devRef .tc main_arg4) (ix1 l)) l
  | 0, b, l => head_v13 V b l
  | n + 1, b, l => by
    show after (opsLvl n) (W V n) (Proc.devRef .tc main_v13) (ix2 b l) = _
    rw [lvl_v13]; exact leafAt_W n b l

/-- Ten stretches down from the root: `main_v104` holds the leaves' weights. -/
theorem lev10 : IsLevel (B := 16384) (n := 1024) 10 (pr V) (W V 10 (Proc.devRef .tc main_v104)) :=
  level10 (probAt_W V 9) (level9 (probAt_W V 8) (level8 (probAt_W V 7) (level7 (probAt_W V 6) (level6 (probAt_W V 5)
    (level5 (probAt_W V 4) (level4 (probAt_W V 3) (level3 (probAt_W V 2) (level2 (probAt_W V 1)
      (level1 (probAt_W V 0) (head_v14 V (pr V)))))))))))

/-- The reference's result is the tree's, index by index. -/
theorem result_eq : after ops V (Proc.devRef .tc main_v107)
    = G (V (Proc.devRef .tc main_arg0)) (V (Proc.devRef .tc main_arg1)) (V (Proc.devRef .tc main_arg2))
        (V (Proc.devRef .tc main_arg3)) (V (Proc.devRef .tc main_arg4)) := by
  funext i
  obtain ⟨b, u, rfl⟩ : ∃ (b : Fin 16384) (u : Fin 1), i = ix2 b u := ⟨i 0, i 1, eq_ix2 i⟩
  rw [after_ops]
  refine (tail_v107 (W V 10) _ _ rfl rfl b u).symm.trans ?_
  rw [G_apply]
  unfold rowOut
  exact Finset.sum_congr rfl fun (l : Fin 1024) _ => by rw [lev10 V b l, leafAt_W V 10 b l]; rfl

/-! ## The arguments -/

theorem arg0_kept : ∀ op ∈ (ops (F := Ideal)), Proc.devRef .tc main_arg0 ∉ op.writes := by none_writes
theorem arg1_kept : ∀ op ∈ (ops (F := Ideal)), Proc.devRef .tc main_arg1 ∉ op.writes := by none_writes
theorem arg2_kept : ∀ op ∈ (ops (F := Ideal)), Proc.devRef .tc main_arg2 ∉ op.writes := by none_writes
theorem arg3_kept : ∀ op ∈ (ops (F := Ideal)), Proc.devRef .tc main_arg3 ∉ op.writes := by none_writes
theorem arg4_kept : ∀ op ∈ (ops (F := Ideal)), Proc.devRef .tc main_arg4 ∉ op.writes := by none_writes

/-- Every weakly fair execution of the idealized reference's @main terminates with its result at `Cert.Tree.G` of the five
    argument arrays as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107)
        = Cert.Tree.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v107).trans (result_eq (launchContents m c)),
      (h c main_arg0).trans (after_of_forall_not_mem _ _ arg0_kept),
      (h c main_arg1).trans (after_of_forall_not_mem _ _ arg1_kept),
      (h c main_arg2).trans (after_of_forall_not_mem _ _ arg2_kept),
      (h c main_arg3).trans (after_of_forall_not_mem _ _ arg3_kept),
      (h c main_arg4).trans (after_of_forall_not_mem _ _ arg4_kept)⟩)
    (run_after m ρ)

end Cert.ReferenceIdeal.RefValue

end
-- ==== Proof.lean ====
/-
  A soft decision tree of depth 10 over a batch of 16384 rows: the kernel (16 grid points of 1024 rows, the two matrix
  products on bf16 casts, `tpu.logistic`) against the plain jnp reference (one pass over the whole batch, the logistic
  function spelt `1 / (1 + exp (-s))`).

  At the ideal instance the casts are the identity and both programs compute, for every row `x`, the split probabilities
  `p k = σ(⟨x, W_split k⟩ + b_split k)`, the leaf outputs `⟨x, W_leaf l⟩ + b_leaf l`, the leaf weights by ten doubling
  steps (`w ↦ interleave (w · (1 - p)) (w · p)`) and the weighted sum of the leaf outputs. Both are shown equal, index by
  index, to ONE function of the five arguments, `Cert.Tree.G` (Proof/TreeSpec.lean): the kernel block by block
  (Proof/KernelBlock.lean for a block's rows, Proof/KernelArray.lean for the 16 blocks covering the result), the
  reference stretch by stretch of its 122 host operations (Proof/RefValue.lean). The doubling step is read at an index
  once for both (Proof/LibInterleave.lean, Proof/TreeLevels.lean), the two matrix products once for both
  (Proof/LibDotNT.lean). No algebraic law beyond the definitions is needed, so the finiteness of the inputs is never used.
  The kernel's two frames are the generated ones; the reference's frame is its run with the result dropped; the ideal
  pass rewrote nothing, so `preserves` is trivial.
-/
import proofs.«164154_j57518202028582_1_alg».proof.Defs
import proofs.«164154_j57518202028582_1_alg».proof.Proof.Gen.Kernel
import proofs.«164154_j57518202028582_1_alg».proof.Proof.Gen.Kernel.Frame
import proofs.«164154_j57518202028582_1_alg».proof.Proof.Gen.KernelIdeal
import proofs.«164154_j57518202028582_1_alg».proof.Proof.Gen.KernelIdeal.Frame
import proofs.«164154_j57518202028582_1_alg».proof.Proof.Gen.ReferenceIdeal
import proofs.«164154_j57518202028582_1_alg».proof.Proof.Gen.Pre_finite_inputs
import proofs.«164154_j57518202028582_1_alg».proof.Proof.KernelArray
import proofs.«164154_j57518202028582_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both runs end with the result at `Cert.Tree.G` of their arguments, and the arguments agree. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
